-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x32x32x32 : Shape := ⟨4, ![8, 32, 32, 32]⟩
abbrev S3x3x32x64 : Shape := ⟨4, ![3, 3, 32, 64]⟩
abbrev S64 : Shape := ⟨1, ![64]⟩
abbrev S_ : Shape := ⟨0, ![]⟩

class Facts : Prop where
  bcast_S_S8x32x32x32 : S_.BroadcastsInDim S8x32x32x32 (![] : Fin 0 → Fin S8x32x32x32.rank)
  reducesTo_S8x32x32x32_S_d0_1_2_3 : S8x32x32x32.ReducesTo [0, 1, 2, 3] S_
  h_S_ : 0 < S_.numel
  bcast_S_S3x3x32x64 : S_.BroadcastsInDim S3x3x32x64 (![] : Fin 0 → Fin S3x3x32x64.rank)
  reducesTo_S3x3x32x64_S_d0_1_2_3 : S3x3x32x64.ReducesTo [0, 1, 2, 3] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S8x32x32x32 .f32) (main_arg1 : FVec F S3x3x32x64 .f32) (main_arg2 : FVec F S3x3x32x64 .f32) (main_arg3 : FVec F S64 .f32) : IVec S_ 1 :=
  let main_v0 : FVec F S8x32x32x32 .f32 := Host.absf main_arg0
  let main_cst : FVec F S_ .f32 := constant S_ .f32 0x7F800000#32
  let main_v1 : FVec F S8x32x32x32 .f32 := broadcastInDim S8x32x32x32 ![] bcast_S_S8x32x32x32 main_cst
  let main_v2 : IVec S8x32x32x32 1 := cmpf .olt main_v0 main_v1
  let main_c : IVec S_ 1 := constantI S_ 1 1#1
  let main_v3 : IVec S_ 1 := (fun x v => Host.reduce IntOp.andi x v reducesTo_S8x32x32x32_S_d0_1_2_3 h_S_) main_v2 main_c
  let main_v4 : FVec F S3x3x32x64 .f32 := Host.absf main_arg1
  let main_cst_0 : FVec F S_ .f32 := constant S_ .f32 0x7F800000#32
  let main_v5 : FVec F S3x3x32x64 .f32 := broadcastInDim S3x3x32x64 ![] bcast_S_S3x3x32x64 main_cst_0
  let main_v6 : IVec S3x3x32x64 1 := cmpf .olt main_v4 main_v5
  let main_c_1 : IVec S_ 1 := constantI S_ 1 1#1
  let main_v7 : IVec S_ 1 := (fun x v => Host.reduce IntOp.andi x v reducesTo_S3x3x32x64_S_d0_1_2_3 h_S_) main_v6 main_c_1
  let main_v8 : IVec S_ 1 := andi main_v3 main_v7
  let main_v9 : FVec F S3x3x32x64 .f32 := Host.absf main_arg2
  let main_cst_2 : FVec F S_ .f32 := constant S_ .f32 0x7F800000#32
  let main_v10 : FVec F S3x3x32x64 .f32 := broadcastInDim S3x3x32x64 ![] bcast_S_S3x3x32x64 main_cst_2
  let main_v11 : IVec S3x3x32x64 1 := cmpf .olt main_v9 main_v10
  let main_c_3 : IVec S_ 1 := constantI S_ 1 1#1
  let main_v12 : IVec S_ 1 := (fun x v => Host.reduce IntOp.andi x v reducesTo_S3x3x32x64_S_d0_1_2_3 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S8x32x32x32 : Shape := ⟨4, ![8, 32, 32, 32]⟩
abbrev S3x3x32x64 : Shape := ⟨4, ![3, 3, 32, 64]⟩
abbrev S64 : Shape := ⟨1, ![64]⟩
abbrev S8x32x30x30 : Shape := ⟨4, ![8, 32, 30, 30]⟩
abbrev S8x1x32x30x30 : Shape := ⟨5, ![8, 1, 32, 30, 30]⟩
abbrev S8x9x32x30x30 : Shape := ⟨5, ![8, 9, 32, 30, 30]⟩
abbrev S8x288x30x30 : Shape := ⟨4, ![8, 288, 30, 30]⟩
abbrev S8x288x900 : Shape := ⟨3, ![8, 288, 900]⟩
abbrev S288x64 : Shape := ⟨2, ![288, 64]⟩
abbrev S8x64x900 : Shape := ⟨3, ![8, 64, 900]⟩
abbrev S1x288x900 : Shape := ⟨3, ![1, 288, 900]⟩
abbrev S1x64x900 : Shape := ⟨3, ![1, 64, 900]⟩
abbrev S64x900 : Shape := ⟨2, ![64, 900]⟩
abbrev S1x16x900 : Shape := ⟨3, ![1, 16, 900]⟩
abbrev S16x900 : Shape := ⟨2, ![16, 900]⟩
abbrev S16x64 : Shape := ⟨2, ![16, 64]⟩
abbrev S16x64x1 : Shape := ⟨3, ![16, 64, 1]⟩
abbrev S16x1x900 : Shape := ⟨3, ![16, 1, 900]⟩
abbrev S16x64x900 : Shape := ⟨3, ![16, 64, 900]⟩
abbrev S64x1 : Shape := ⟨2, ![64, 1]⟩
abbrev S8x64x30x30 : Shape := ⟨4, ![8, 64, 30, 30]⟩

abbrev nBuf : Space → Nat
  | .hbm => 29
  | .vmem => 7
  | .smem => 0
  | _ => 0

abbrev bufTy : (tb : Table) → Fin (tcTables nBuf tb) → BufTy
  | .hbm, ⟨0, _⟩ => ⟨S8x32x32x32, .f32⟩
  | .hbm, ⟨1, _⟩ => ⟨S3x3x32x64, .f32⟩
  | .hbm, ⟨2, _⟩ => ⟨S3x3x32x64, .f32⟩
  | .hbm, ⟨3, _⟩ => ⟨S64, .f32⟩
  | .hbm, ⟨4, _⟩ => ⟨S8x32x30x30, .f32⟩
  | .hbm, ⟨5, _⟩ => ⟨S8x32x30x30, .f32⟩
  | .hbm, ⟨6, _⟩ => ⟨S8x32x30x30, .f32⟩
  | .hbm, ⟨7, _⟩ => ⟨S8x32x30x30, .f32⟩
  | .hbm, ⟨8, _⟩ => ⟨S8x32x30x30, .f32⟩
  | .hbm, ⟨9, _⟩ => ⟨S8x32x30x30, .f32⟩
  | .hbm, ⟨10, _⟩ => ⟨S8x32x30x30, .f32⟩
  | .hbm, ⟨11, _⟩ => ⟨S8x32x30x30, .f32⟩
  | .hbm, ⟨12, _⟩ => ⟨S8x32x30x30, .f32⟩
  | .hbm, ⟨13, _⟩ => ⟨S8x1x32x30x30, .f32⟩
  | .hbm, ⟨14, _⟩ => ⟨S8x1x32x30x30, .f32⟩
  | .hbm, ⟨15, _⟩ => ⟨S8x1x32x30x30, .f32⟩
  | .hbm, ⟨16, _⟩ => ⟨S8x1x32x30x30, .f32⟩
  | .hbm, ⟨17, _⟩ => ⟨S8x1x32x30x30, .f32⟩
  | .hbm, ⟨18, _⟩ => ⟨S8x1x32x30x30, .f32⟩
  | .hbm, ⟨19, _⟩ => ⟨S8x1x32x30x30, .f32⟩
  | .hbm, ⟨20, _⟩ => ⟨S8x1x32x30x30, .f32⟩
  | .hbm, ⟨21, _⟩ => ⟨S8x1x32x30x30, .f32⟩
  | .hbm, ⟨22, _⟩ => ⟨S8x9x32x30x30, .f32⟩
  | .hbm, ⟨23, _⟩ => ⟨S8x288x30x30, .f32⟩
  | .hbm, ⟨24, _⟩ => ⟨S8x288x900, .f32⟩
  | .hbm, ⟨25, _⟩ => ⟨S288x64, .f32⟩
  | .hbm, ⟨26, _⟩ => ⟨S288x64, .f32⟩
  | .hbm, ⟨27, _⟩ => ⟨S8x64x900, .f32⟩
  | .hbm, ⟨28, _⟩ => ⟨S8x64x30x30, .f32⟩
  | .local _ .vmem, ⟨0, _⟩ => ⟨S1x288x900, .f32⟩
  | .local _ .vmem, ⟨1, _⟩ => ⟨S1x288x900, .f32⟩
  | .local _ .vmem, ⟨2, _⟩ => ⟨S288x64, .f32⟩
  | .local _ .vmem, ⟨3, _⟩ => ⟨S288x64, .f32⟩
  | .local _ .vmem, ⟨4, _⟩ => ⟨S64, .f32⟩
  | .local _ .vmem, ⟨5, _⟩ => ⟨S1x64x900, .f32⟩
  | .local _ .vmem, ⟨6, _⟩ => ⟨S1x64x900, .f32⟩
  | _, _ => ⟨S8x32x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c18_i32 : BitVec 32 := 18#32
  let v1 : BitVec 32 := Scalar.addi c0_i32 c18_i32
  let c1_i32 : BitVec 32 := 1#32
  ⟨c0_i32, v1, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c16_i32 : BitVec 32 := 16#32
  let v17 : BitVec 32 := Scalar.muli arg6 c16_i32
  v17
def k0_off1 (k0_t1 : Fin k0_t1_loop.trips) : Fin 3 → Nat :=
  let c0_4 : Index := 0#32
  let c0_i32 : BitVec 32 := 0#32
  let c1_i32 : BitVec 32 := 1#32
  let arg6 : BitVec 32 := Scf.iv c0_i32 c1_i32 k0_t1
  let c16_i32 : BitVec 32 := 16#32
  let v17 : BitVec 32 := Scalar.muli arg6 c16_i32
  let v18 : BitVec 32 := v17
  let v19 : Index := Scalar.indexCast v18
  let c0_5 : Index := 0#32
  ![0, v19.toNat, 0]
def k0_off2 (k0_t1 : Fin k0_t1_loop.trips) : Fin 2 → Nat :=
  let c0_i32 : BitVec 32 := 0#32
  let c1_i32 : BitVec 32 := 1#32
  let arg6 : BitVec 32 := Scf.iv c0_i32 c1_i32 k0_t1
  let c16_i32 : BitVec 32 := 16#32
  let v17 : BitVec 32 := Scalar.muli arg6 c16_i32
  let v18 : BitVec 32 := v17
  let v30 : Index := Scalar.indexCast v18
  let c0_9 : Index := 0#32
  ![v30.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x288x900 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S288x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S288x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x64x900 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S8x32x32x32_S8x32x30x30_0_0_0_0 : S8x32x32x32.Slices ![0, 0, 0, 0] S8x32x30x30
  slices_S8x32x32x32_S8x32x30x30_0_0_0_1 : S8x32x32x32.Slices ![0, 0, 0, 1] S8x32x30x30
  slices_S8x32x32x32_S8x32x30x30_0_0_0_2 : S8x32x32x32.Slices ![0, 0, 0, 2] S8x32x30x30
  slices_S8x32x32x32_S8x32x30x30_0_0_1_0 : S8x32x32x32.Slices ![0, 0, 1, 0] S8x32x30x30
  slices_S8x32x32x32_S8x32x30x30_0_0_1_1 : S8x32x32x32.Slices ![0, 0, 1, 1] S8x32x30x30
  slices_S8x32x32x32_S8x32x30x30_0_0_1_2 : S8x32x32x32.Slices ![0, 0, 1, 2] S8x32x30x30
  slices_S8x32x32x32_S8x32x30x30_0_0_2_0 : S8x32x32x32.Slices ![0, 0, 2, 0] S8x32x30x30
  slices_S8x32x32x32_S8x32x30x30_0_0_2_1 : S8x32x32x32.Slices ![0, 0, 2, 1] S8x32x30x30
  slices_S8x32x32x32_S8x32x30x30_0_0_2_2 : S8x32x32x32.Slices ![0, 0, 2, 2] S8x32x30x30
  bcast_S8x32x30x30_S8x1x32x30x30_0_2_3_4 : S8x32x30x30.BroadcastsInDim S8x1x32x30x30 (![0, 2, 3, 4] : Fin 4 → Fin S8x1x32x30x30.rank)
  concatenates_S8x1x32x30x30_S8x1x32x30x30_S8x1x32x30x30_S8x1x32x30x30_S8x1x32x30x30_S8x1x32x30x30_S8x1x32x30x30_S8x1x32x30x30_S8x1x32x30x30_S8x9x32x30x30_d1 : Shape.Concatenates [S8x1x32x30x30, S8x1x32x30x30, S8x1x32x30x30, S8x1x32x30x30, S8x1x32x30x30, S8x1x32x30x30, S8x1x32x30x30, S8x1x32x30x30, S8x1x32x30x30] S8x9x32x30x30 1
  shapeCasts_S8x9x32x30x30_S8x288x30x30 : S8x9x32x30x30.ShapeCasts S8x288x30x30
  shapeCasts_S8x288x30x30_S8x288x900 : S8x288x30x30.ShapeCasts S8x288x900
  shapeCasts_S3x3x32x64_S288x64 : S3x3x32x64.ShapeCasts S288x64
  h_S1x16x900 : 0 < S1x16x900.numel
  shapeCasts_S1x16x900_S16x900 : S1x16x900.ShapeCasts S16x900
  h_S16x64 : 0 < S16x64.numel
  shapeCasts_S16x64_S16x64 : S16x64.ShapeCasts S16x64
  shapeCasts_S16x64_S16x64x1 : S16x64.ShapeCasts S16x64x1
  shapeCasts_S16x900_S16x1x900 : S16x900.ShapeCasts S16x1x900
  broadcasts_S16x64x1_S16x64x900 : S16x64x1.Broadcasts S16x64x900
  broadcasts_S16x1x900_S16x64x900 : S16x1x900.Broadcasts S16x64x900
  reduces_S16x64x900_S64x900 : S16x64x900.Reduces [0] S64x900
  inb_S64_S64_0 : ∀ a, (![0] : Fin 1 → Nat) a + S64.size a ≤ S64.size a
  h_S64 : 0 < S64.numel
  shapeCasts_S64_S64x1 : S64.ShapeCasts S64x1
  broadcasts_S64x1_S64x900 : S64x1.Broadcasts S64x900
  inb_S1x64x900_S1x64x900_0_0_0 : ∀ a, (![0, 0, 0] : Fin 3 → Nat) a + S1x64x900.size a ≤ S1x64x900.size a
  h_S1x64x900 : 0 < S1x64x900.numel
  shapeCasts_S1x64x900_S64x900 : S1x64x900.ShapeCasts S64x900
  shapeCasts_S64x900_S1x64x900 : S64x900.ShapeCasts S1x64x900
  shapeCasts_S8x64x900_S8x64x30x30 : S8x64x900.ShapeCasts S8x64x30x30
  hrank0 : 0 < grid0.rank
  k0_t1_ok : k0_t1_loop.OK
  k0_mult1_dvd : ∀ k0_t1 : Fin k0_t1_loop.trips, 16 ∣ (k0_mult1 k0_t1).toNat
  k0_off1_inb : ∀ k0_t1 : Fin k0_t1_loop.trips, ∀ a, (k0_off1 k0_t1) a + S1x16x900.size a ≤ S1x288x900.size a
  k0_off2_inb : ∀ k0_t1 : Fin k0_t1_loop.trips, ∀ a, (k0_off2 k0_t1) a + S16x64.size a ≤ S288x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x288x900.size a ≤ S8x288x900.size a
  hwx0_0 : ∀ i : grid0.Coords, EltTy.bits .f32 = 32 ∨ (Rect.block (s := S8x288x900) S1x288x900.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S288x64.size a ≤ S288x64.size a
  hwx0_1 : ∀ i : grid0.Coords, EltTy.bits .f32 = 32 ∨ (Rect.block (s := S288x64) S288x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S288x64.size a ≤ S288x64.size a
  hwx0_2 : ∀ i : grid0.Coords, EltTy.bits .f32 = 32 ∨ (Rect.block (s := S288x64) S288x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x64x900.size a ≤ S8x64x900.size a
  hwx0_4 : ∀ i : grid0.Coords, EltTy.bits .f32 = 32 ∨ (Rect.block (s := S8x64x900) S1x64x900.size (cc0_transform_4 i) (hinb0_4 i)).WholeWords (EltTy.packing .f32)

variable [Facts₀]

abbrev win0_0 : Pipeline.Window sig grid0 :=
  Pipeline.Window.ofSpec (Memref.whole main_v20) S1x288x900.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S288x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v22) S288x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x64x900.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x32x32x32 : Shape := ⟨4, ![8, 32, 32, 32]⟩
abbrev S3x3x32x64 : Shape := ⟨4, ![3, 3, 32, 64]⟩
abbrev S64 : Shape := ⟨1, ![64]⟩
abbrev S288x64 : Shape := ⟨2, ![288, 64]⟩
abbrev S8x32x30x30 : Shape := ⟨4, ![8, 32, 30, 30]⟩
abbrev S8x1x32x30x30 : Shape := ⟨5, ![8, 1, 32, 30, 30]⟩
abbrev S8x9x32x30x30 : Shape := ⟨5, ![8, 9, 32, 30, 30]⟩
abbrev S8x288x30x30 : Shape := ⟨4, ![8, 288, 30, 30]⟩
abbrev S_ : Shape := ⟨0, ![]⟩
abbrev S8x288x1x30x30 : Shape := ⟨5, ![8, 288, 1, 30, 30]⟩
abbrev S1x288x64x1x1 : Shape := ⟨5, ![1, 288, 64, 1, 1]⟩
abbrev S8x288x64x30x30 : Shape := ⟨5, ![8, 288, 64, 30, 30]⟩
abbrev S8x64x30x30 : Shape := ⟨4, ![8, 64, 30, 30]⟩
abbrev S1x64x1x1 : Shape := ⟨4, ![1, 64, 1, 1]⟩

abbrev nBuf : Space → Nat
  | .hbm => 93
  | .vmem => 0
  | .smem => 0
  | _ => 0

abbrev bufTy : (tb : Table) → Fin (tcTables nBuf tb) → BufTy
  | .hbm, ⟨0, _⟩ => ⟨S8x32x32x32, .f32⟩
  | .hbm, ⟨1, _⟩ => ⟨S3x3x32x64, .f32⟩
  | .hbm, ⟨2, _⟩ => ⟨S3x3x32x64, .f32⟩
  | .hbm, ⟨3, _⟩ => ⟨S64, .f32⟩
  | .hbm, ⟨4, _⟩ => ⟨S288x64, .f32⟩
  | .hbm, ⟨5, _⟩ => ⟨S288x64, .f32⟩
  | .hbm, ⟨6, _⟩ => ⟨S8x32x30x30, .f32⟩
  | .hbm, ⟨7, _⟩ => ⟨S8x32x30x30, .f32⟩
  | .hbm, ⟨8, _⟩ => ⟨S8x32x30x30, .f32⟩
  | .hbm, ⟨9, _⟩ => ⟨S8x32x30x30, .f32⟩
  | .hbm, ⟨10, _⟩ => ⟨S8x32x30x30, .f32⟩
  | .hbm, ⟨11, _⟩ => ⟨S8x32x30x30, .f32⟩
  | .hbm, ⟨12, _⟩ => ⟨S8x32x30x30, .f32⟩
  | .hbm, ⟨13, _⟩ => ⟨S8x32x30x30, .f32⟩
  | .hbm, ⟨14, _⟩ => ⟨S8x32x30x30, .f32⟩
  | .hbm, ⟨15, _⟩ => ⟨S8x1x32x30x30, .f32⟩
  | .hbm, ⟨16, _⟩ => ⟨S8x1x32x30x30, .f32⟩
  | .hbm, ⟨17, _⟩ => ⟨S8x1x32x30x30, .f32⟩
  | .hbm, ⟨18, _⟩ => ⟨S8x1x32x30x30, .f32⟩
  | .hbm, ⟨19, _⟩ => ⟨S8x1x32x30x30, .f32⟩
  | .hbm, ⟨20, _⟩ => ⟨S8x1x32x30x30, .f32⟩
  | .hbm, ⟨21, _⟩ => ⟨S8x1x32x30x30, .f32⟩
  | .hbm, ⟨22, _⟩ => ⟨S8x1x32x30x30, .f32⟩
  | .hbm, ⟨23, _⟩ => ⟨S8x1x32x30x30, .f32⟩
  | .hbm, ⟨24, _⟩ => ⟨S8x9x32x30x30, .f32⟩
  | .hbm, ⟨25, _⟩ => ⟨S8x288x30x30, .f32⟩
  | .hbm, ⟨26, _⟩ => ⟨S_, .f32⟩
  | .hbm, ⟨27, _⟩ => ⟨S8x288x30x30, .f32⟩
  | .hbm, ⟨28, _⟩ => ⟨S8x288x30x30, .f32⟩
  | .hbm, ⟨29, _⟩ => ⟨S8x288x30x30, .f32⟩
  | .hbm, ⟨30, _⟩ => ⟨S8x32x32x32, .f32⟩
  | .hbm, ⟨31, _⟩ => ⟨S8x32x30x30, .f32⟩
  | .hbm, ⟨32, _⟩ => ⟨S8x32x30x30, .f32⟩
  | .hbm, ⟨33, _⟩ => ⟨S8x32x30x30, .f32⟩
  | .hbm, ⟨34, _⟩ => ⟨S8x32x30x30, .f32⟩
  | .hbm, ⟨35, _⟩ => ⟨S8x32x30x30, .f32⟩
  | .hbm, ⟨36, _⟩ => ⟨S8x32x30x30, .f32⟩
  | .hbm, ⟨37, _⟩ => ⟨S8x32x30x30, .f32⟩
  | .hbm, ⟨38, _⟩ => ⟨S8x32x30x30, .f32⟩
  | .hbm, ⟨39, _⟩ => ⟨S8x32x30x30, .f32⟩
  | .hbm, ⟨40, _⟩ => ⟨S8x1x32x30x30, .f32⟩
  | .hbm, ⟨41, _⟩ => ⟨S8x1x32x30x30, .f32⟩
  | .hbm, ⟨42, _⟩ => ⟨S8x1x32x30x30, .f32⟩
  | .hbm, ⟨43, _⟩ => ⟨S8x1x32x30x30, .f32⟩
  | .hbm, ⟨44, _⟩ => ⟨S8x1x32x30x30, .f32⟩
  | .hbm, ⟨45, _⟩ => ⟨S8x1x32x30x30, .f32⟩
  | .hbm, ⟨46, _⟩ => ⟨S8x1x32x30x30, .f32⟩
  | .hbm, ⟨47, _⟩ => ⟨S8x1x32x30x30, .f32⟩
  | .hbm, ⟨48, _⟩ => ⟨S8x1x32x30x30, .f32⟩
  | .hbm, ⟨49, _⟩ => ⟨S8x9x32x30x30, .f32⟩
  | .hbm, ⟨50, _⟩ => ⟨S8x288x30x30, .f32⟩
  | .hbm, ⟨51, _⟩ => ⟨S_, .f32⟩
  | .hbm, ⟨52, _⟩ => ⟨S8x288x30x30, .f32⟩
  | .hbm, ⟨53, _⟩ => ⟨S8x288x30x30, .f32⟩
  | .hbm, ⟨54, _⟩ => ⟨S8x288x30x30, .f32⟩
  | .hbm, ⟨55, _⟩ => ⟨S8x288x1x30x30, .f32⟩
  | .hbm, ⟨56, _⟩ => ⟨S1x288x64x1x1, .f32⟩
  | .hbm, ⟨57, _⟩ => ⟨S8x288x64x30x30, .f32⟩
  | .hbm, ⟨58, _⟩ => ⟨S8x288x64x30x30, .f32⟩
  | .hbm, ⟨59, _⟩ => ⟨S8x288x64x30x30, .f32⟩
  | .hbm, ⟨60, _⟩ => ⟨S_, .f32⟩
  | .hbm, ⟨61, _⟩ => ⟨S8x64x30x30, .f32⟩
  | .hbm, ⟨62, _⟩ => ⟨S8x64x30x30, .f32⟩
  | .hbm, ⟨63, _⟩ => ⟨S8x288x1x30x30, .f32⟩
  | .hbm, ⟨64, _⟩ => ⟨S1x288x64x1x1, .f32⟩
  | .hbm, ⟨65, _⟩ => ⟨S8x288x64x30x30, .f32⟩
  | .hbm, ⟨66, _⟩ => ⟨S8x288x64x30x30, .f32⟩
  | .hbm, ⟨67, _⟩ => ⟨S8x288x64x30x30, .f32⟩
  | .hbm, ⟨68, _⟩ => ⟨S_, .f32⟩
  | .hbm, ⟨69, _⟩ => ⟨S8x64x30x30, .f32⟩
  | .hbm, ⟨70, _⟩ => ⟨S8x64x30x30, .f32⟩
  | .hbm, ⟨71, _⟩ => ⟨S8x288x1x30x30, .f32⟩
  | .hbm, ⟨72, _⟩ => ⟨S1x288x64x1x1, .f32⟩
  | .hbm, ⟨73, _⟩ => ⟨S8x288x64x30x30, .f32⟩
  | .hbm, ⟨74, _⟩ => ⟨S8x288x64x30x30, .f32⟩
  | .hbm, ⟨75, _⟩ => ⟨S8x288x64x30x30, .f32⟩
  | .hbm, ⟨76, _⟩ => ⟨S_, .f32⟩
  | .hbm, ⟨77, _⟩ => ⟨S8x64x30x30, .f32⟩
  | .hbm, ⟨78, _⟩ => ⟨S8x64x30x30, .f32⟩
  | .hbm, ⟨79, _⟩ => ⟨S8x288x1x30x30, .f32⟩
  | .hbm, ⟨80, _⟩ => ⟨S1x288x64x1x1, .f32⟩
  | .hbm, ⟨81, _⟩ => ⟨S8x288x64x30x30, .f32⟩
  | .hbm, ⟨82, _⟩ => ⟨S8x288x64x30x30, .f32⟩
  | .hbm, ⟨83, _⟩ => ⟨S8x288x64x30x30, .f32⟩
  | .hbm, ⟨84, _⟩ => ⟨S_, .f32⟩
  | .hbm, ⟨85, _⟩ => ⟨S8x64x30x30, .f32⟩
  | .hbm, ⟨86, _⟩ => ⟨S8x64x30x30, .f32⟩
  | .hbm, ⟨87, _⟩ => ⟨S8x64x30x30, .f32⟩
  | .hbm, ⟨88, _⟩ => ⟨S8x64x30x30, .f32⟩
  | .hbm, ⟨89, _⟩ => ⟨S8x64x30x30, .f32⟩
  | .hbm, ⟨90, _⟩ => ⟨S1x64x1x1, .f32⟩
  | .hbm, ⟨91, _⟩ => ⟨S8x64x30x30, .f32⟩
  | .hbm, ⟨92, _⟩ => ⟨S8x64x30x30, .f32⟩
  | _, _ => ⟨S8x32x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_cst : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_cst_0 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_cst_1 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_cst_2 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_cst_3 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_cst_4 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩

abbrev nD : Nat := 1
abbrev τ : Topo := Topo.v7x

variable {F : FTy → Type} [FloatOps F]

class Facts₀ : Prop where
  shapeCasts_S3x3x32x64_S288x64 : S3x3x32x64.ShapeCasts S288x64
  slices_S8x32x32x32_S8x32x30x30_0_0_0_0 : S8x32x32x32.Slices ![0, 0, 0, 0] S8x32x30x30
  slices_S8x32x32x32_S8x32x30x30_0_0_0_1 : S8x32x32x32.Slices ![0, 0, 0, 1] S8x32x30x30
  slices_S8x32x32x32_S8x32x30x30_0_0_0_2 : S8x32x32x32.Slices ![0, 0, 0, 2] S8x32x30x30
  slices_S8x32x32x32_S8x32x30x30_0_0_1_0 : S8x32x32x32.Slices ![0, 0, 1, 0] S8x32x30x30
  slices_S8x32x32x32_S8x32x30x30_0_0_1_1 : S8x32x32x32.Slices ![0, 0, 1, 1] S8x32x30x30
  slices_S8x32x32x32_S8x32x30x30_0_0_1_2 : S8x32x32x32.Slices ![0, 0, 1, 2] S8x32x30x30
  slices_S8x32x32x32_S8x32x30x30_0_0_2_0 : S8x32x32x32.Slices ![0, 0, 2, 0] S8x32x30x30
  slices_S8x32x32x32_S8x32x30x30_0_0_2_1 : S8x32x32x32.Slices ![0, 0, 2, 1] S8x32x30x30
  slices_S8x32x32x32_S8x32x30x30_0_0_2_2 : S8x32x32x32.Slices ![0, 0, 2, 2] S8x32x30x30
  bcast_S8x32x30x30_S8x1x32x30x30_0_2_3_4 : S8x32x30x30.BroadcastsInDim S8x1x32x30x30 (![0, 2, 3, 4] : Fin 4 → Fin S8x1x32x30x30.rank)
  concatenates_S8x1x32x30x30_S8x1x32x30x30_S8x1x32x30x30_S8x1x32x30x30_S8x1x32x30x30_S8x1x32x30x30_S8x1x32x30x30_S8x1x32x30x30_S8x1x32x30x30_S8x9x32x30x30_d1 : Shape.Concatenates [S8x1x32x30x30, S8x1x32x30x30, S8x1x32x30x30, S8x1x32x30x30, S8x1x32x30x30, S8x1x32x30x30, S8x1x32x30x30, S8x1x32x30x30, S8x1x32x30x30] S8x9x32x30x30 1
  shapeCasts_S8x9x32x30x30_S8x288x30x30 : S8x9x32x30x30.ShapeCasts S8x288x30x30
  bcast_S_S8x288x30x30 : S_.BroadcastsInDim S8x288x30x30 (![] : Fin 0 → Fin S8x288x30x30.rank)
  bcast_S8x288x30x30_S8x288x1x30x30_0_1_3_4 : S8x288x30x30.BroadcastsInDim S8x288x1x30x30 (![0, 1, 3, 4] : Fin 4 → Fin S8x288x1x30x30.rank)
  bcast_S288x64_S1x288x64x1x1_1_2 : S288x64.BroadcastsInDim S1x288x64x1x1 (![1, 2] : Fin 2 → Fin S1x288x64x1x1.rank)
  bcast_S8x288x1x30x30_S8x288x64x30x30_0_1_2_3_4 : S8x288x1x30x30.BroadcastsInDim S8x288x64x30x30 (![0, 1, 2, 3, 4] : Fin 5 → Fin S8x288x64x30x30.rank)
  bcast_S1x288x64x1x1_S8x288x64x30x30_0_1_2_3_4 : S1x288x64x1x1.BroadcastsInDim S8x288x64x30x30 (![0, 1, 2, 3, 4] : Fin 5 → Fin S8x288x64x30x30.rank)
  reducesTo_S8x288x64x30x30_S8x64x30x30_d1 : S8x288x64x30x30.ReducesTo [1] S8x64x30x30
  h_S_ : 0 < S_.numel
  bcast_S64_S1x64x1x1_1 : S64.BroadcastsInDim S1x64x1x1 (![1] : Fin 1 → Fin S1x64x1x1.rank)
  bcast_S1x64x1x1_S8x64x30x30_0_1_2_3 : S1x64x1x1.BroadcastsInDim S8x64x30x30 (![0, 1, 2, 3] : Fin 4 → Fin S8x64x30x30.rank)

variable [Facts₀]

class Facts : Prop extends Facts₀ where

variable [Facts]
-- ==== Proof.KernelFrame.lean ====
/-
  The frame of the kernel's program, at any float instance: every weakly fair execution of @main runs to the end,
  faults nowhere, and leaves the four argument arrays as launched — with each array of the one pipeline NAMED after the run.

  @main is 23 host operations (nine shifted slices of the image, each given a unit axis, their join, two flattenings, the
  two weight arrays flattened), the pipelined kernel over a grid of the 8 batch entries, and one host operation after it
  (the result unflattened).  The kernel reads four windows — the batch entry's [288, 900] patch block, the two whole
  [288, 64] weight arrays, the whole bias — and fills the fifth, the batch entry's [64, 900] result block, with one
  store.  Its body is a counted loop of 18 trips over the 288 window positions, sixteen at a time, carrying four
  running maxima that start at -∞; after the loop it stores the four exponentials combined plus the bias.
  Nothing but the result block is written, so the argument arrays end as they began: the image and the weights
  because no operation of @main writes them, the bias because an input window's array is never written back.
-/
import proofs.«175772_j20409684591419_1_alg».proof.Proof.Gen.Kernel.Launch
import proofs.«175772_j20409684591419_1_alg».proof.Proof.Gen.Kernel.Skeleton
import proofs.«175772_j20409684591419_1_alg».proof.Proof.Gen.Kernel.Loops
import proofs.«175772_j20409684591419_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- What core `c`'s buffers hold when the region is entered: the launch contents after the 23 host operations. -/
abbrev V0 (c : Dev nD) : Valuation τ sig (Elt F) := StableHlo.after (List.flatten [hostOps0]) (fun b => m (c, b))
/-- The same, read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the one after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operation after the region touches only unscoped buffers, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocates nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and writes no array of the pipeline (it writes the unflattened result, which no window stages). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.reshape_writes, Finset.mem_singleton] <;> exact StableHlo.devRef_ne_of_ne (by decide)

/-- No host operation before the region writes an argument array: the region finds each as launched. -/
theorem V_arg (b : Ref sig .tc) (hb : b = main_arg0 ∨ b = main_arg1 ∨ b = main_arg2 ∨ b = main_arg3) (c : Dev nD) :
    V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.unary_writes, StableHlo.reshape_writes, StableHlo.nary_writes, Finset.mem_singleton]
    rcases hb with rfl | rfl | rfl | rfl
    all_goals repeat' apply And.intro
    all_goals exact StableHlo.devRef_ne_of_ne (by decide)))

/-- Nor does the one after it: an argument array that no window stages ends as launched. -/
theorem W_arg (dats : (p : Fin _) → (c : Dev nD) → Dat τ (Elt F) Unit ℕ (UR sig nD τ) ℕ (cfgs p) c)
    (b : Ref sig .tc) (hb : b = main_arg0 ∨ b = main_arg1 ∨ b = main_arg2) (c : Dev nD) :
    Pipeline.afterTail₀ cfgs dats 0 (V0 m) [hostOps1] c b = m ((c : Thread nD τ).loc b) := by
  unfold Pipeline.afterTail₀
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.reshape_writes, Finset.mem_singleton]
      rcases hb with rfl | rfl | rfl
      all_goals exact StableHlo.devRef_ne_of_ne (by decide))),
    Pipeline.withArrays_of_ne _ c (V0 m c) _ b (by
      rcases hb with rfl | rfl | rfl <;> decide)]
  exact V_arg m b (by rcases hb with rfl | rfl | rfl <;> simp) c

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, whether the point fetched it or not: the
    patch block is fetched at every point; the weights and the bias are fetched once and their block index never moves.
    One statement per input window (the block's shape is the window's own). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The kernel body on any staging memrefs -/

/-- Each window's current staging memref at point `t`, and that it is a whole buffer. -/
abbrev ms0_0 (t : Fin cfg0.N) : Memref sig .tc .vmem S1x288x900 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S288x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S288x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x64x900 .f32 := win0_4.stage (cfg0.slots t 4)
abbrev hs0_4 (t : Fin cfg0.N) : (ms0_4 t).IsWhole := hstage0_4 ((cfg0.slots t 4).cast nbuf0_4)

/-- The one store's rectangle: the whole result block. -/
abbrev rOut : Rect S1x64x900 := Rect.unit (s := S1x64x900) ![0, 0, 0] S1x64x900.size inb_S1x64x900_S1x64x900_0_0_0

/-- The one store covers the result block. -/
theorem coverOut (p0 : Vec F S1x64x900 .f32) (y : S1x64x900.Idx) :
    ∃ pc ∈ ([⟨rOut, p0⟩] : List (View.Piece (Elt F) S1x64x900 .f32)), y ∈ pc.1.set :=
  View.cover_of_tiled [⟨rOut, p0⟩] S1x64x900.size (by rfl) y

set_option maxHeartbeats 2000000 in
/-- THE BODY'S RUN.  On whole staging memrefs, the four inputs' at the contents `x0 … x3` and the result's at anything,
    the body runs to the end holding the inputs' as they were and the result's at ONE value of `x0 … x3`: the value
    of the one store — the four running maxima after the eighteen trips, exponentiated and combined, plus the bias.
    That value is the first component; the run finds it. -/
def kernelRun (c : Dev nD) (i : grid0.Coords)
    (arg1 : Memref sig .tc .vmem S1x288x900 .f32) (harg1 : arg1.IsWhole) (arg2 : Memref sig .tc .vmem S288x64 .f32) (harg2 : arg2.IsWhole)
    (arg3 : Memref sig .tc .vmem S288x64 .f32) (harg3 : arg3.IsWhole) (arg4 : Memref sig .tc .vmem S64 .f32) (harg4 : arg4.IsWhole)
    (arg5 : Memref sig .tc .vmem S1x64x900 .f32) (harg5 : arg5.IsWhole)
    (x0 : Vec F S1x288x900 .f32) (x1 x2 : Vec F S288x64 .f32) (x3 : Vec F S64 .f32) :
    { out : Vec F S1x64x900 .f32 // ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ (∃ d, owns (c : Thread nD τ) arg5 fullShare d)
            ∗ (iprop(owns (c : Thread nD τ) arg1 fullShare x0 ∗ owns (c : Thread nD τ) arg2 fullShare x1 ∗ owns (c : Thread nD τ) arg3 fullShare x2
                ∗ owns (c : Thread nD τ) arg4 fullShare x3 ∗ owns (c : Thread nD τ) arg5 fullShare out) -∗ K ⟨⟩))
          ⊢ wp frame (wpE (defs₀ (F := F)) Variants.none c none) E (cc0__morph_kernel i arg1 harg1 arg2 harg2 arg3 harg3 arg4 harg4 arg5 harg5) K } := by
  refine ⟨?_, fun E K => ?run⟩
  case run =>
    simp only [cc0__morph_kernel_eq_skeleton]; unfold cc0__morph_kernel_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg1.eq_unread hf0; obtain rfl := harg2.eq_unread hf1
    obtain rfl := harg3.eq_unread hf2; obtain rfl := harg4.eq_unread hf3
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; isplitr
    swap; · iexact H4
    ipureintro
    exact View.read_writes_eq_canon _ _ _ (coverOut (F := F) _)

/-! ## The pipeline's proof data -/

/-- The proof data of the one pipeline on core `c`: the arrays as the region finds them; after the body at point `t`
    each input's buffer at its block and the result's at the body's value of the four input blocks; the invariant the
    scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (kernelRun c (grid0.coords t) (ms0_0 t) (hs0_0 t) (ms0_1 t) (hs0_1 t) (ms0_2 t) (hs0_2 t) (ms0_3 t) (hs0_3 t) (ms0_4 t) (hs0_4 t)
        (iblk m c 0 t) (iblk m c 1 t) (iblk m c 2 t) (iblk m c 3 t)).1
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t
    = (kernelRun c (grid0.coords t) (ms0_0 t) (hs0_0 t) (ms0_1 t) (hs0_1 t) (ms0_2 t) (hs0_2 t) (ms0_3 t) (hs0_3 t) (ms0_4 t) (hs0_4 t)
        (iblk m c 0 t) (iblk m c 1 t) (iblk m c 2 t) (iblk m c 3 t)).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' memrefs hold their blocks, so the run applies; the invariant and what the core
    owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply ((kernelRun c (grid0.coords t) _ _ _ _ _ _ _ _ _ _ (iblk m c 0 t) (iblk m c 1 t) (iblk m c 2 t) (iblk m c 3 t)).2 Set.univ _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's obligation of the body, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has each array of the pipeline at what the
    write-backs of the proof data leave and every other unscoped buffer as the operation after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- THE FRAME: the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 (by decide) (by decide))).trans (W_arg m (dats m) main_arg0 (.inl rfl) c),
     ((h c).2 main_arg1 (Pipeline.mem_restRefs_of main_arg1 (by decide) (by decide))).trans (W_arg m (dats m) main_arg1 (.inr (.inl rfl)) c),
     ((h c).2 main_arg2 (Pipeline.mem_restRefs_of main_arg2 (by decide) (by decide))).trans (W_arg m (dats m) main_arg2 (.inr (.inr rfl)) c),
     ((h c).1 3).trans (((dats m 0 c).arrAt_in 3 rfl _).trans ((A_eq m c 3).trans (V_arg m main_arg3 (.inr (.inr (.inr rfl))) c)))⟩)
    (run_main m ρ)

end Cert.Kernel.Fr

end
-- ==== Proof.KernelIdealFrame.lean ====
/-
  The frame of the kernel's program, at any float instance: every weakly fair execution of @main runs to the end,
  faults nowhere, and leaves the four argument arrays as launched — with each array of the one pipeline NAMED after the run.

  @main is 23 host operations (nine shifted slices of the image, each given a unit axis, their join, two flattenings, the
  two weight arrays flattened), the pipelined kernel over a grid of the 8 batch entries, and one host operation after it
  (the result unflattened).  The kernel reads four windows — the batch entry's [288, 900] patch block, the two whole
  [288, 64] weight arrays, the whole bias — and fills the fifth, the batch entry's [64, 900] result block, with one
  store.  Its body is a counted loop of 18 trips over the 288 window positions, sixteen at a time, carrying four
  running maxima that start at -∞; after the loop it stores the four exponentials combined plus the bias.
  Nothing but the result block is written, so the argument arrays end as they began: the image and the weights
  because no operation of @main writes them, the bias because an input window's array is never written back.
-/
import proofs.«175772_j20409684591419_1_alg».proof.Proof.Gen.KernelIdeal.Launch
import proofs.«175772_j20409684591419_1_alg».proof.Proof.Gen.KernelIdeal.Skeleton
import proofs.«175772_j20409684591419_1_alg».proof.Proof.Gen.KernelIdeal.Loops
import proofs.«175772_j20409684591419_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- What core `c`'s buffers hold when the region is entered: the launch contents after the 23 host operations. -/
abbrev V0 (c : Dev nD) : Valuation τ sig (Elt F) := StableHlo.after (List.flatten [hostOps0]) (fun b => m (c, b))
/-- The same, read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the one after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operation after the region touches only unscoped buffers, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocates nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and writes no array of the pipeline (it writes the unflattened result, which no window stages). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.reshape_writes, Finset.mem_singleton] <;> exact StableHlo.devRef_ne_of_ne (by decide)

/-- No host operation before the region writes an argument array: the region finds each as launched. -/
theorem V_arg (b : Ref sig .tc) (hb : b = main_arg0 ∨ b = main_arg1 ∨ b = main_arg2 ∨ b = main_arg3) (c : Dev nD) :
    V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.unary_writes, StableHlo.reshape_writes, StableHlo.nary_writes, Finset.mem_singleton]
    rcases hb with rfl | rfl | rfl | rfl
    all_goals repeat' apply And.intro
    all_goals exact StableHlo.devRef_ne_of_ne (by decide)))

/-- Nor does the one after it: an argument array that no window stages ends as launched. -/
theorem W_arg (dats : (p : Fin _) → (c : Dev nD) → Dat τ (Elt F) Unit ℕ (UR sig nD τ) ℕ (cfgs p) c)
    (b : Ref sig .tc) (hb : b = main_arg0 ∨ b = main_arg1 ∨ b = main_arg2) (c : Dev nD) :
    Pipeline.afterTail₀ cfgs dats 0 (V0 m) [hostOps1] c b = m ((c : Thread nD τ).loc b) := by
  unfold Pipeline.afterTail₀
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.reshape_writes, Finset.mem_singleton]
      rcases hb with rfl | rfl | rfl
      all_goals exact StableHlo.devRef_ne_of_ne (by decide))),
    Pipeline.withArrays_of_ne _ c (V0 m c) _ b (by
      rcases hb with rfl | rfl | rfl <;> decide)]
  exact V_arg m b (by rcases hb with rfl | rfl | rfl <;> simp) c

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, whether the point fetched it or not: the
    patch block is fetched at every point; the weights and the bias are fetched once and their block index never moves.
    One statement per input window (the block's shape is the window's own). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The kernel body on any staging memrefs -/

/-- Each window's current staging memref at point `t`, and that it is a whole buffer. -/
abbrev ms0_0 (t : Fin cfg0.N) : Memref sig .tc .vmem S1x288x900 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S288x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S288x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x64x900 .f32 := win0_4.stage (cfg0.slots t 4)
abbrev hs0_4 (t : Fin cfg0.N) : (ms0_4 t).IsWhole := hstage0_4 ((cfg0.slots t 4).cast nbuf0_4)

/-- The one store's rectangle: the whole result block. -/
abbrev rOut : Rect S1x64x900 := Rect.unit (s := S1x64x900) ![0, 0, 0] S1x64x900.size inb_S1x64x900_S1x64x900_0_0_0

/-- The one store covers the result block. -/
theorem coverOut (p0 : Vec F S1x64x900 .f32) (y : S1x64x900.Idx) :
    ∃ pc ∈ ([⟨rOut, p0⟩] : List (View.Piece (Elt F) S1x64x900 .f32)), y ∈ pc.1.set :=
  View.cover_of_tiled [⟨rOut, p0⟩] S1x64x900.size (by rfl) y

set_option maxHeartbeats 2000000 in
/-- THE BODY'S RUN.  On whole staging memrefs, the four inputs' at the contents `x0 … x3` and the result's at anything,
    the body runs to the end holding the inputs' as they were and the result's at ONE value of `x0 … x3`: the value
    of the one store — the four running maxima after the eighteen trips, exponentiated and combined, plus the bias.
    That value is the first component; the run finds it. -/
def kernelRun (c : Dev nD) (i : grid0.Coords)
    (arg1 : Memref sig .tc .vmem S1x288x900 .f32) (harg1 : arg1.IsWhole) (arg2 : Memref sig .tc .vmem S288x64 .f32) (harg2 : arg2.IsWhole)
    (arg3 : Memref sig .tc .vmem S288x64 .f32) (harg3 : arg3.IsWhole) (arg4 : Memref sig .tc .vmem S64 .f32) (harg4 : arg4.IsWhole)
    (arg5 : Memref sig .tc .vmem S1x64x900 .f32) (harg5 : arg5.IsWhole)
    (x0 : Vec F S1x288x900 .f32) (x1 x2 : Vec F S288x64 .f32) (x3 : Vec F S64 .f32) :
    { out : Vec F S1x64x900 .f32 // ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ (∃ d, owns (c : Thread nD τ) arg5 fullShare d)
            ∗ (iprop(owns (c : Thread nD τ) arg1 fullShare x0 ∗ owns (c : Thread nD τ) arg2 fullShare x1 ∗ owns (c : Thread nD τ) arg3 fullShare x2
                ∗ owns (c : Thread nD τ) arg4 fullShare x3 ∗ owns (c : Thread nD τ) arg5 fullShare out) -∗ K ⟨⟩))
          ⊢ wp frame (wpE (defs₀ (F := F)) Variants.none c none) E (cc0__morph_kernel i arg1 harg1 arg2 harg2 arg3 harg3 arg4 harg4 arg5 harg5) K } := by
  refine ⟨?_, fun E K => ?run⟩
  case run =>
    simp only [cc0__morph_kernel_eq_skeleton]; unfold cc0__morph_kernel_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg1.eq_unread hf0; obtain rfl := harg2.eq_unread hf1
    obtain rfl := harg3.eq_unread hf2; obtain rfl := harg4.eq_unread hf3
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; isplitr
    swap; · iexact H4
    ipureintro
    exact View.read_writes_eq_canon _ _ _ (coverOut (F := F) _)

/-! ## The pipeline's proof data -/

/-- The proof data of the one pipeline on core `c`: the arrays as the region finds them; after the body at point `t`
    each input's buffer at its block and the result's at the body's value of the four input blocks; the invariant the
    scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (kernelRun c (grid0.coords t) (ms0_0 t) (hs0_0 t) (ms0_1 t) (hs0_1 t) (ms0_2 t) (hs0_2 t) (ms0_3 t) (hs0_3 t) (ms0_4 t) (hs0_4 t)
        (iblk m c 0 t) (iblk m c 1 t) (iblk m c 2 t) (iblk m c 3 t)).1
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t
    = (kernelRun c (grid0.coords t) (ms0_0 t) (hs0_0 t) (ms0_1 t) (hs0_1 t) (ms0_2 t) (hs0_2 t) (ms0_3 t) (hs0_3 t) (ms0_4 t) (hs0_4 t)
        (iblk m c 0 t) (iblk m c 1 t) (iblk m c 2 t) (iblk m c 3 t)).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' memrefs hold their blocks, so the run applies; the invariant and what the core
    owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply ((kernelRun c (grid0.coords t) _ _ _ _ _ _ _ _ _ _ (iblk m c 0 t) (iblk m c 1 t) (iblk m c 2 t) (iblk m c 3 t)).2 Set.univ _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's obligation of the body, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has each array of the pipeline at what the
    write-backs of the proof data leave and every other unscoped buffer as the operation after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- THE FRAME: the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 (by decide) (by decide))).trans (W_arg m (dats m) main_arg0 (.inl rfl) c),
     ((h c).2 main_arg1 (Pipeline.mem_restRefs_of main_arg1 (by decide) (by decide))).trans (W_arg m (dats m) main_arg1 (.inr (.inl rfl)) c),
     ((h c).2 main_arg2 (Pipeline.mem_restRefs_of main_arg2 (by decide) (by decide))).trans (W_arg m (dats m) main_arg2 (.inr (.inr rfl)) c),
     ((h c).1 3).trans (((dats m 0 c).arrAt_in 3 rfl _).trans ((A_eq m c 3).trans (V_arg m main_arg3 (.inr (.inr (.inr rfl))) c)))⟩)
    (run_main m ρ)

end Cert.KernelIdeal.Fr

end
-- ==== Proof.Spec.lean ====
/-
  The mathematics of the bipolar morphological layer, as ONE function of the four argument arrays.

  For an image `x : [8, 32, 32, 32]` (batch, channel, row, column) and the 3 × 3 window, `patch x b p h w` is the
  entry of `x` that window position `p` of the output pixel `(h, w)` sees: `p = (3·di + dj)·32 + c` names the
  offset `(di, dj)` inside the window and the channel `c`, so the entry is `x[b, c, h + di, w + dj]`.  A weight
  array `k : [3, 3, 32, 64]` is read flat the same way, `kflat k p o = k[di, dj, c, o]`.

  The layer works in the log domain with a shift `s` (the float `0.1`): `logPos = log (max patch s)`,
  `logNeg = log (max (-patch) s)`, and a branch is the max-plus product followed by the exponential,
  `exp (sup_p (kflat k p o + L p))`.  The result is `((e₁₁ - e₁₂) - e₂₁) + e₂₂ + bias o`, the four branches pairing
  (positive, k1), (positive, k2), (negative, k1), (negative, k2) — everything on the extended reals, where the
  supremum over the 288 window positions is a `Finset.sup` (its bottom is `-∞`).
-/
import Idealize.ShloMosaic.PureOps.Ideal
import Idealize.ShloMosaic.Lib.ValueIdx

noncomputable section

namespace Cert.Morph

open Idealize.ShloMosaic Idealize.ShloMosaic.ValueIdx

abbrev SX : Shape := ⟨4, ![8, 32, 32, 32]⟩
abbrev SK : Shape := ⟨4, ![3, 3, 32, 64]⟩
abbrev SB : Shape := ⟨1, ![64]⟩
abbrev SY : Shape := ⟨4, ![8, 64, 30, 30]⟩

/-- The shift `0.1`, as the float both programs spell. -/
def shift : EReal := Ideal.ofBits .f32 0x3DCCCCCD#32

/-- The entry of the image that window position `p` of output pixel `(h, w)` sees: `x[b, p % 32, h + p / 96, w + p / 32 % 3]`. -/
def patch (x : SX.Idx → EReal) (b : Fin 8) (p : Fin 288) (h w : Fin 30) : EReal :=
  x (ix4 b (⟨p.val % 32, Nat.mod_lt _ (by decide)⟩ : Fin 32)
    (⟨h.val + p.val / 96, by have := p.isLt; have := h.isLt; omega⟩ : Fin 32)
    (⟨w.val + p.val / 32 % 3, by have := w.isLt; omega⟩ : Fin 32))

/-- A weight array read flat over the window positions: `k[p / 96, p / 32 % 3, p % 32, o]`. -/
def kflat (k : SK.Idx → EReal) (p : Fin 288) (o : Fin 64) : EReal :=
  k (ix4 (⟨p.val / 96, by have := p.isLt; omega⟩ : Fin 3) (⟨p.val / 32 % 3, Nat.mod_lt _ (by decide)⟩ : Fin 3)
    (⟨p.val % 32, Nat.mod_lt _ (by decide)⟩ : Fin 32) o)

/-- The log of the positive part, shifted. -/
def logPos (x : SX.Idx → EReal) (b : Fin 8) (p : Fin 288) (h w : Fin 30) : EReal :=
  Ideal.log (max (patch x b p h w) shift)

/-- The log of the negative part, shifted. -/
def logNeg (x : SX.Idx → EReal) (b : Fin 8) (p : Fin 288) (h w : Fin 30) : EReal :=
  Ideal.log (max (-(patch x b p h w)) shift)

/-- One branch: the max-plus product over the window positions, then the exponential. -/
def branch (kcol L : Fin 288 → EReal) : EReal :=
  Ideal.exp (Finset.univ.sup fun p => kcol p + L p)

/-- The layer at explicit coordinates. -/
def Gat (x : SX.Idx → EReal) (k1 k2 : SK.Idx → EReal) (bias : SB.Idx → EReal) (b : Fin 8) (o : Fin 64) (h w : Fin 30) : EReal :=
  branch (fun p => kflat k1 p o) (fun p => logPos x b p h w) - branch (fun p => kflat k2 p o) (fun p => logPos x b p h w)
    - branch (fun p => kflat k1 p o) (fun p => logNeg x b p h w) + branch (fun p => kflat k2 p o) (fun p => logNeg x b p h w)
    + bias (ix1 o)

/-- The layer: the result array as one function of the argument arrays. -/
def G (x : SX.Idx → EReal) (k1 k2 : SK.Idx → EReal) (bias : SB.Idx → EReal) : SY.Idx → EReal :=
  fun i => Gat x k1 k2 bias (i 0) (i 1) (i 2) (i 3)

theorem G_apply (x : SX.Idx → EReal) (k1 k2 : SK.Idx → EReal) (bias : SB.Idx → EReal) (b : Fin 8) (o : Fin 64) (h w : Fin 30) :
    G x k1 k2 bias (ix4 b o h w) = Gat x k1 k2 bias b o h w := rfl

end Cert.Morph

end
-- ==== Proof.KernelIdealPayloads.lean ====
/-
  The kernel body's pure values read at an index, on the extended reals: one trip's update of each of the four
  running maxima, their common start, and the value stored at the end.
-/
import proofs.«175772_j20409684591419_1_alg».proof.Proof.Gen.KernelIdeal.Skeleton
import proofs.«175772_j20409684591419_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Pay

open Idealize.ShloMosaic Idealize.ShloMosaic.ValueIdx Cert.KernelIdeal Cert.KernelIdeal.Gen

variable {α : Type}

/-! ## Layout operations of the body, read at an index given by coordinates -/

/-- An `[a, b]` array given a trailing unit axis reads, at `(i, j, u)`, the operand at `(i, j)`: both indices sit at
    row-major position `i b + j`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b]` array given a middle unit axis reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a]` array given a trailing unit axis reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, b, 1]` array broadcast along its last axis reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a, 1, c]` array broadcast along its middle axis reads, at `(i, j, k)`, the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- An `[a, 1]` column broadcast over `b` columns reads, at `(i, j)`, the operand at `(i, 0)`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-! ## The maximum over the sixteen rows of a trip -/

/-- The word the running maxima and the reductions start from is `-∞`. -/
theorem ofBits_negInf : Ideal.ofBits .f32 0xFF800000#32 = (⊥ : EReal) := by
  simp [Ideal.ofBits, Ideal.ieee]

/-- The source index over `(o, s)` with row `r` inserted on axis 0 is `(r, o, s)`. -/
theorem lift_rows (o : Fin 64) (s : Fin 900) (r : Fin 16) :
    reduces_S16x64x900_S64x900.lift (ix2 o s) r = ix3 r o s := by
  funext c
  refine Fin.ext ?_
  match c with
  | ⟨0, _⟩ => rfl
  | ⟨1, _⟩ => rfl
  | ⟨2, _⟩ => rfl

/-- The maximum over axis 0 of a `[16, 64, 900]` array, started from `-∞`, is at `(o, s)` the supremum over the
    sixteen rows: the fold of `max` from `⊥` over the rows is what `Finset.sup` is. -/
theorem reduce_rows (v : FVec Ideal S16x64x900 .f32) (o : Fin 64) (s : Fin 900) :
    multiReduction (F := Ideal) .maximumf [0] S64x900 v 0xFF800000#32 reduces_S16x64x900_S64x900 (.inl rfl) rfl (ix2 o s)
      = Finset.univ.sup fun r : Fin 16 => v (ix3 r o s) := by
  refine (Ideal.multiReduction_maximumf_single v 0xFF800000#32 reduces_S16x64x900_S64x900 (.inl rfl) rfl (ix2 o s)).trans ?_
  show (Finset.univ : Finset (Fin 16)).fold max (Ideal.ofBits .f32 0xFF800000#32)
      (v ∘ reduces_S16x64x900_S64x900.lift (ix2 o s)) = _
  have hf : (v ∘ reduces_S16x64x900_S64x900.lift (ix2 o s)) = fun r : Fin 16 => v (ix3 r o s) :=
    funext fun r => congrArg v (lift_rows o s r)
  rw [ofBits_negInf, hf]
  rfl

/-- ONE TRIP'S UPDATE of a running maximum `a`, for sixteen rows `w` of a weight array and the sixteen rows `L` of
    logarithms: the weights spread over the pixels, the logarithms over the output channels, added, the maximum taken
    over the rows and then against `a`. At `(o, s)` it is `max a (sup_r (w r o + L r s))`. -/
theorem trip_apply (a : FVec Ideal S64x900 .f32) (w : FVec Ideal S16x64 .f32) (L : FVec Ideal S16x900 .f32)
    (o : Fin 64) (s : Fin 900) :
    maximumf a (multiReduction (F := Ideal) .maximumf [0] S64x900
        (addf (broadcastTo S16x64x900 (shapeCast S16x64x1 (shapeCast S16x64 w shapeCasts_S16x64_S16x64)
                shapeCasts_S16x64_S16x64x1) broadcasts_S16x64x1_S16x64x900)
              (broadcastTo S16x64x900 (shapeCast S16x1x900 L shapeCasts_S16x900_S16x1x900)
                broadcasts_S16x1x900_S16x64x900))
        0xFF800000#32 reduces_S16x64x900_S64x900 (.inl rfl) rfl) (ix2 o s)
      = max (a (ix2 o s)) (Finset.univ.sup fun r : Fin 16 => w (ix2 r o) + L (ix2 r s)) := by
  refine (maximumf_apply _ _ _).trans (congrArg (max (a (ix2 o s))) ?_)
  refine (reduce_rows _ o s).trans (Finset.sup_congr rfl fun r _ => ?_)
  refine (addf_apply _ _ _).trans ?_
  -- the weight: spread along the pixels, through the two casts
  have hw : broadcastTo S16x64x900 (shapeCast S16x64x1 (shapeCast S16x64 w shapeCasts_S16x64_S16x64)
      shapeCasts_S16x64_S16x64x1) broadcasts_S16x64x1_S16x64x900 (ix3 r o s) = w (ix2 r o) :=
    (broadcastTo_ab1_abc_apply _ _ r o s).trans
      ((shapeCast_ab_ab1_apply _ _ r o 0).trans (congrFun (shapeCast_self w _) (ix2 r o)))
  -- the logarithm: spread along the output channels, through the cast
  have hL : broadcastTo S16x64x900 (shapeCast S16x1x900 L shapeCasts_S16x900_S16x1x900)
      broadcasts_S16x1x900_S16x64x900 (ix3 r o s) = L (ix2 r s) :=
    (broadcastTo_a1c_abc_apply _ _ r o s).trans (shapeCast_ab_a1b_apply _ _ r 0 s)
  rw [hw, hL]

/-! ## The logarithms of a trip's sixteen rows -/

/-- The loaded `[1, 16, 900]` block viewed `[16, 900]`. -/
theorem pay3_apply (v20 : Vec Ideal S1x16x900 .f32) (r : Fin 16) (s : Fin 900) :
    k0_pay3 v20 (ix2 r s) = v20 (ix3 (0 : Fin 1) r s) := by
  unfold k0_pay3
  exact shapeCast_1ab_ab_apply v20 _ r s

/-- The log of the positive part, shifted. -/
theorem pay4_apply (v20 : Vec Ideal S1x16x900 .f32) (r : Fin 16) (s : Fin 900) :
    k0_pay4 v20 (ix2 r s) = Ideal.log (max (v20 (ix3 (0 : Fin 1) r s)) Cert.Morph.shift) := by
  unfold k0_pay4
  show Ideal.log (max (k0_pay3 v20 (ix2 r s)) (Ideal.ofBits .f32 0x3DCCCCCD#32)) = _
  rw [pay3_apply]
  rfl

/-- The log of the negative part, shifted: `0 - x` is `-x`. -/
theorem pay5_apply (v20 : Vec Ideal S1x16x900 .f32) (r : Fin 16) (s : Fin 900) :
    k0_pay5 v20 (ix2 r s) = Ideal.log (max (-(v20 (ix3 (0 : Fin 1) r s))) Cert.Morph.shift) := by
  unfold k0_pay5
  show Ideal.log (max (Ideal.ofBits .f32 0x00000000#32 - k0_pay3 v20 (ix2 r s)) (Ideal.ofBits .f32 0x3DCCCCCD#32)) = _
  rw [pay3_apply, Ideal.ofBits_zero_f32, zero_sub]
  rfl

/-! ## The payloads -/

/-- The running maxima start at `-∞`. -/
theorem pay1_apply (j : S64x900.Idx) : k0_pay1 (F := Ideal) j = (⊥ : EReal) := by
  unfold k0_pay1
  exact ofBits_negInf

/-- One trip, (positive part, first weights): the maximum so far against the trip's sixteen rows. -/
theorem pay8_apply (a : FVec Ideal S64x900 .f32) (v20 : Vec Ideal S1x16x900 .f32) (v31 : Vec Ideal S16x64 .f32) (o : Fin 64) (s : Fin 900) :
    k0_pay8 a v20 v31 (ix2 o s)
      = max (a (ix2 o s)) (Finset.univ.sup fun r : Fin 16 => v31 (ix2 r o) + Ideal.log (max (v20 (ix3 (0 : Fin 1) r s)) Cert.Morph.shift)) :=
  (trip_apply a v31 (k0_pay4 v20) o s).trans
    (congrArg (max (a (ix2 o s))) (Finset.sup_congr rfl fun r _ => congrArg (v31 (ix2 r o) + ·) (pay4_apply v20 r s)))

/-- One trip, (positive part, second weights). -/
theorem pay9_apply (a : FVec Ideal S64x900 .f32) (v20 : Vec Ideal S1x16x900 .f32) (v34 : Vec Ideal S16x64 .f32) (o : Fin 64) (s : Fin 900) :
    k0_pay9 a v20 v34 (ix2 o s)
      = max (a (ix2 o s)) (Finset.univ.sup fun r : Fin 16 => v34 (ix2 r o) + Ideal.log (max (v20 (ix3 (0 : Fin 1) r s)) Cert.Morph.shift)) :=
  (trip_apply a v34 (k0_pay4 v20) o s).trans
    (congrArg (max (a (ix2 o s))) (Finset.sup_congr rfl fun r _ => congrArg (v34 (ix2 r o) + ·) (pay4_apply v20 r s)))

/-- One trip, (negative part, first weights). -/
theorem pay10_apply (a : FVec Ideal S64x900 .f32) (v20 : Vec Ideal S1x16x900 .f32) (v31 : Vec Ideal S16x64 .f32) (o : Fin 64) (s : Fin 900) :
    k0_pay10 a v20 v31 (ix2 o s)
      = max (a (ix2 o s)) (Finset.univ.sup fun r : Fin 16 => v31 (ix2 r o) + Ideal.log (max (-(v20 (ix3 (0 : Fin 1) r s))) Cert.Morph.shift)) :=
  (trip_apply a v31 (k0_pay5 v20) o s).trans
    (congrArg (max (a (ix2 o s))) (Finset.sup_congr rfl fun r _ => congrArg (v31 (ix2 r o) + ·) (pay5_apply v20 r s)))

/-- One trip, (negative part, second weights). -/
theorem pay11_apply (a : FVec Ideal S64x900 .f32) (v20 : Vec Ideal S1x16x900 .f32) (v34 : Vec Ideal S16x64 .f32) (o : Fin 64) (s : Fin 900) :
    k0_pay11 a v20 v34 (ix2 o s)
      = max (a (ix2 o s)) (Finset.univ.sup fun r : Fin 16 => v34 (ix2 r o) + Ideal.log (max (-(v20 (ix3 (0 : Fin 1) r s))) Cert.Morph.shift)) :=
  (trip_apply a v34 (k0_pay5 v20) o s).trans
    (congrArg (max (a (ix2 o s))) (Finset.sup_congr rfl fun r _ => congrArg (v34 (ix2 r o) + ·) (pay5_apply v20 r s)))

/-- The stored value: the four exponentials combined, plus the bias of the row. -/
theorem pay2_apply (a b c d : FVec Ideal S64x900 .f32) (v10 : Vec Ideal S64 .f32) (o : Fin 64) (s : Fin 900) :
    k0_pay2 a b c d v10 (ix3 (0 : Fin 1) o s)
      = Ideal.exp (a (ix2 o s)) - Ideal.exp (b (ix2 o s)) - Ideal.exp (c (ix2 o s)) + Ideal.exp (d (ix2 o s)) + v10 (ix1 o) := by
  unfold k0_pay2
  -- the stored block is the `[64, 900]` value under a leading unit axis
  refine (shapeCast_ab_1ab_apply _ _ (0 : Fin 1) o s).trans ?_
  -- the bias: a column, spread over the pixels
  have hb : broadcastTo S64x900 (shapeCast S64x1 v10 shapeCasts_S64_S64x1) broadcasts_S64x1_S64x900 (ix2 o s) = v10 (ix1 o) :=
    (broadcastTo_a1_ab_apply _ _ o s).trans (shapeCast_a_a1_apply _ _ o 0)
  show Ideal.exp (a (ix2 o s)) - Ideal.exp (b (ix2 o s)) - Ideal.exp (c (ix2 o s)) + Ideal.exp (d (ix2 o s))
      + broadcastTo S64x900 (shapeCast S64x1 v10 shapeCasts_S64_S64x1) broadcasts_S64x1_S64x900 (ix2 o s) = _
  rw [hb]

end Cert.KernelIdeal.Pay

end
-- ==== Proof.LibRunMax.lean ====
/-
  A running maximum over consecutive blocks of an index range is the supremum over the whole range.
-/
import Mathlib.Data.Finset.Lattice.Fold
import Mathlib.Data.Fintype.Basic
import Mathlib.Data.EReal.Basic

noncomputable section

namespace Cert.Morph

/-- The maximum taken block by block: before block `k` it is the supremum over the first `k` blocks of `B` entries
    (the bottom, `-∞`, before the first). -/
def runMax {B N : ℕ} (f : Fin N → EReal) : ℕ → EReal
  | 0 => ⊥
  | k + 1 => max (runMax (B := B) f k) (Finset.univ.sup fun r : Fin B => if h : B * k + r.val < N then f ⟨B * k + r.val, h⟩ else ⊥)

/-- Before block `k` the running maximum is the supremum over the entries of index below `B * k`: block `k` adds exactly
    the entries of index `B * k ≤ i < B * (k + 1)`. -/
theorem runMax_eq_sup_lt {B N : ℕ} (f : Fin N → EReal) (k : ℕ) :
    runMax (B := B) f k = Finset.univ.sup fun i : Fin N => if i.val < B * k then f i else ⊥ := by
  induction k with
  | zero =>
    show (⊥ : EReal) = _
    symm
    rw [Finset.sup_eq_bot_iff]
    intro i _
    rw [if_neg (by omega)]
  | succ k ih =>
    show max (runMax (B := B) f k)
      (Finset.univ.sup fun r : Fin B => if h : B * k + r.val < N then f ⟨B * k + r.val, h⟩ else ⊥) = _
    rw [ih]
    apply le_antisymm
    · apply max_le
      · -- an entry below B k is below B (k + 1)
        apply Finset.sup_le
        intro i _
        split
        · next h =>
          refine le_trans ?_ (Finset.le_sup (f := fun i : Fin N => if i.val < B * (k + 1) then f i else ⊥) (Finset.mem_univ i))
          show f i ≤ if i.val < B * (k + 1) then f i else ⊥
          rw [if_pos (by rw [Nat.mul_succ]; omega)]
        · exact bot_le
      · -- entry r of block k has index B k + r < B (k + 1)
        apply Finset.sup_le
        intro r _
        split
        · next h =>
          refine le_trans ?_ (Finset.le_sup (f := fun i : Fin N => if i.val < B * (k + 1) then f i else ⊥)
            (Finset.mem_univ ⟨B * k + r.val, h⟩))
          show f ⟨B * k + r.val, h⟩ ≤ if B * k + r.val < B * (k + 1) then f ⟨B * k + r.val, h⟩ else ⊥
          rw [if_pos (by rw [Nat.mul_succ]; have := r.isLt; omega)]
        · exact bot_le
    · -- an entry below B (k + 1) is below B k, or is entry i - B k of block k
      apply Finset.sup_le
      intro i _
      split
      · next h =>
        by_cases hk : i.val < B * k
        · refine le_trans ?_ (le_max_left _ _)
          refine le_trans ?_ (Finset.le_sup (f := fun i : Fin N => if i.val < B * k then f i else ⊥) (Finset.mem_univ i))
          show f i ≤ if i.val < B * k then f i else ⊥
          rw [if_pos hk]
        · refine le_trans ?_ (le_max_right _ _)
          have hr : i.val - B * k < B := by rw [Nat.mul_succ] at h; omega
          have hi : B * k + (i.val - B * k) = i.val := by omega
          refine le_trans ?_ (Finset.le_sup (f := fun r : Fin B => if h : B * k + r.val < N then f ⟨B * k + r.val, h⟩ else ⊥)
            (Finset.mem_univ ⟨i.val - B * k, hr⟩))
          show f i ≤ if h : B * k + (i.val - B * k) < N then f ⟨B * k + (i.val - B * k), h⟩ else ⊥
          rw [dif_pos (by rw [hi]; exact i.isLt)]
          exact le_of_eq (congrArg f (Fin.ext hi.symm))
      · exact bot_le

/-- After all the blocks it is the supremum of every entry. -/
theorem runMax_eq {B nb : ℕ} (f : Fin (B * nb) → EReal) : runMax (B := B) f nb = Finset.univ.sup f := by
  rw [runMax_eq_sup_lt]
  exact Finset.sup_congr rfl fun i _ => if_pos i.isLt

end Cert.Morph

end
-- ==== Proof.KernelIdealValue.lean ====
/-
  What the kernel's body stores, on the extended reals, as a function of its four input blocks.

  For one batch entry the body sees the patch block `x0 : [1, 288, 900]` (window position, pixel), the two weight arrays
  `x1, x2 : [288, 64]` (window position, output row) and the bias `x3 : [64]`.  Trip `k` of its loop reads positions
  `16 k … 16 k + 15` and replaces each running maximum `a` by `max a (sup_r (weight + log-part))` over those sixteen;
  the maxima start at -∞, so after the eighteen trips each is the supremum over all 288 positions (a running maximum over
  consecutive blocks is the supremum over the whole range).  The stored value at (row o, pixel s) is
  `exp M₁₁ - exp M₁₂ - exp M₂₁ + exp M₂₂ + x3 o` with `M` the four suprema: (positive part, x1), (positive, x2),
  (negative, x1), (negative, x2).
-/
import proofs.«175772_j20409684591419_1_alg».proof.Proof.KernelIdealFrame
import proofs.«175772_j20409684591419_1_alg».proof.Proof.KernelIdealPayloads
import proofs.«175772_j20409684591419_1_alg».proof.Proof.LibRunMax
import proofs.«175772_j20409684591419_1_alg».proof.Proof.Spec
import Idealize.ShloMosaic.PureOps.Ideal.Laws
import Idealize.ShloMosaic.Lib.ValueIdx
import Idealize.ShloMosaic.Lib.Pipeline.Value
import Idealize.ShloMosaic.Lib.Tactic

noncomputable section

namespace Cert.KernelIdeal.Val

open Idealize.ShloMosaic Idealize.ShloMosaic.TcCoe Idealize.ShloMosaic.Tactic Idealize.ShloMosaic.ValueIdx Idealize.SL.Sem
open Cert.KernelIdeal Cert.KernelIdeal.Gen Cert.KernelIdeal.Fr Cert.KernelIdeal.Pay Cert.Morph

/-- The loop makes eighteen trips. -/
theorem trips_eq : k0_t1_loop.trips = 18 := by decide +kernel

/-! ## The summands of the four max-plus products -/

/-- (weight + log of the positive part) at window position `p`, for output row `o` and pixel `s`. -/
def termPos (x0 : Vec Ideal S1x288x900 .f32) (w : Vec Ideal S288x64 .f32) (o : Fin 64) (s : Fin 900) (p : Fin 288) : EReal :=
  w (ix2 p o) + Ideal.log (max (x0 (ix3 (0 : Fin 1) p s)) shift)

/-- (weight + log of the negative part). -/
def termNeg (x0 : Vec Ideal S1x288x900 .f32) (w : Vec Ideal S288x64 .f32) (o : Fin 64) (s : Fin 900) (p : Fin 288) : EReal :=
  w (ix2 p o) + Ideal.log (max (-(x0 (ix3 (0 : Fin 1) p s))) shift)

/-! ## A trip's loads at an index -/

/-- Trip `k`'s load of the patch block reads window positions `16 k + r`. -/
theorem ld_patch (x0 : Vec Ideal S1x288x900 .f32) (k : Fin k0_t1_loop.trips) (r : Fin 16) (s : Fin 900) (h : 16 * k.val + r.val < 288) :
    View.ld x0 (Rect.unit (s := S1x288x900) (k0_off1 k) S1x16x900.size (k0_off1_inb k)) (ix3 (0 : Fin 1) r s)
      = x0 (ix3 (0 : Fin 1) (⟨16 * k.val + r.val, h⟩ : Fin 288) s) := by
  show x0 _ = x0 _
  congr 1
  funext a
  apply Fin.ext
  simp only [LoadRect.idx_apply, Rect.emb_apply, Rect.off_unit, Rect.stride_unit, k0_off1_eq]
  match a with
  | ⟨0, _⟩ => show 0 + 1 * 0 = 0; omega
  | ⟨1, _⟩ => show 16 * k.val + 1 * r.val = 16 * k.val + r.val; omega
  | ⟨2, _⟩ => show 0 + 1 * s.val = s.val; omega

/-- Trip `k`'s load of a weight array reads rows `16 k + r`. -/
theorem ld_weight (w : Vec Ideal S288x64 .f32) (k : Fin k0_t1_loop.trips) (r : Fin 16) (o : Fin 64) (h : 16 * k.val + r.val < 288) :
    View.ld w (Rect.unit (s := S288x64) (k0_off2 k) S16x64.size (k0_off2_inb k)) (ix2 r o)
      = w (ix2 (⟨16 * k.val + r.val, h⟩ : Fin 288) o) := by
  show w _ = w _
  congr 1
  funext a
  apply Fin.ext
  simp only [LoadRect.idx_apply, Rect.emb_apply, Rect.off_unit, Rect.stride_unit, k0_off2_eq]
  match a with
  | ⟨0, _⟩ => show 16 * k.val + 1 * r.val = 16 * k.val + r.val; omega
  | ⟨1, _⟩ => show 0 + 1 * o.val = o.val; omega

/-- The load of the whole bias reads it. -/
theorem ld_bias (x3 : Vec Ideal S64 .f32) (o : Fin 64) :
    View.ld x3 (Rect.unit (s := S64) ![0] S64.size inb_S64_S64_0) (ix1 o) = x3 (ix1 o) := by
  show x3 _ = x3 _
  congr 1
  funext a
  apply Fin.ext
  simp only [LoadRect.idx_apply, Rect.emb_apply, Rect.off_unit, Rect.stride_unit]
  match a with
  | ⟨0, _⟩ => show 0 + 1 * o.val = o.val; omega

/-! ## One trip, opened once -/

/-- One trip replaces the four running maxima by the four payload updates over its loads. -/
theorem trip_eq (𝒱 : Variants) (c : Dev nD) (bd : Option 𝒱.V) (i : grid0.Coords)
    (arg1 : Memref sig .tc .vmem S1x288x900 .f32) (harg1 : arg1.IsWhole) (arg2 : Memref sig .tc .vmem S288x64 .f32) (harg2 : arg2.IsWhole)
    (arg3 : Memref sig .tc .vmem S288x64 .f32) (harg3 : arg3.IsWhole) (arg4 : Memref sig .tc .vmem S64 .f32) (harg4 : arg4.IsWhole)
    (arg5 : Memref sig .tc .vmem S1x64x900 .f32) (harg5 : arg5.IsWhole)
    (X1 : BufTy.Contents (Elt Ideal) arg1.view.ty) (X2 : BufTy.Contents (Elt Ideal) arg2.view.ty) (X3 : BufTy.Contents (Elt Ideal) arg3.view.ty)
    (k : Fin k0_t1_loop.trips) (acc : FVec Ideal S64x900 .f32 × FVec Ideal S64x900 .f32 × FVec Ideal S64x900 .f32 × FVec Ideal S64x900 .f32) :
    tripR_k0_t1 (F := Ideal) 𝒱 c bd i arg1 harg1 arg2 harg2 arg3 harg3 arg4 harg4 arg5 harg5 X1 X2 X3 k acc
      = (k0_pay8 acc.1 (View.ld (arg1.view.read (Elt Ideal) X1) (Rect.unit (s := S1x288x900) (k0_off1 k) S1x16x900.size (k0_off1_inb k)))
            (View.ld (arg2.view.read (Elt Ideal) X2) (Rect.unit (s := S288x64) (k0_off2 k) S16x64.size (k0_off2_inb k))),
         k0_pay9 acc.2.1 (View.ld (arg1.view.read (Elt Ideal) X1) (Rect.unit (s := S1x288x900) (k0_off1 k) S1x16x900.size (k0_off1_inb k)))
            (View.ld (arg3.view.read (Elt Ideal) X3) (Rect.unit (s := S288x64) (k0_off2 k) S16x64.size (k0_off2_inb k))),
         k0_pay10 acc.2.2.1 (View.ld (arg1.view.read (Elt Ideal) X1) (Rect.unit (s := S1x288x900) (k0_off1 k) S1x16x900.size (k0_off1_inb k)))
            (View.ld (arg2.view.read (Elt Ideal) X2) (Rect.unit (s := S288x64) (k0_off2 k) S16x64.size (k0_off2_inb k))),
         k0_pay11 acc.2.2.2 (View.ld (arg1.view.read (Elt Ideal) X1) (Rect.unit (s := S1x288x900) (k0_off1 k) S1x16x900.size (k0_off1_inb k)))
            (View.ld (arg3.view.read (Elt Ideal) X3) (Rect.unit (s := S288x64) (k0_off2 k) S16x64.size (k0_off2_inb k)))) := by
  unfold tripR_k0_t1 trip_k0_t1
  dsimp only
  sl_unfold_words
  rfl

/-! ## The running maxima before trip `n` -/

section Trips

variable (c : Dev nD) (i : grid0.Coords)
  (arg1 : Memref sig .tc .vmem S1x288x900 .f32) (harg1 : arg1.IsWhole) (arg2 : Memref sig .tc .vmem S288x64 .f32) (harg2 : arg2.IsWhole)
  (arg3 : Memref sig .tc .vmem S288x64 .f32) (harg3 : arg3.IsWhole) (arg4 : Memref sig .tc .vmem S64 .f32) (harg4 : arg4.IsWhole)
  (arg5 : Memref sig .tc .vmem S1x64x900 .f32) (harg5 : arg5.IsWhole)
  (x0 : Vec Ideal S1x288x900 .f32) (x1 x2 : Vec Ideal S288x64 .f32)

/-- The four running maxima before trip `n`, as the loop carries them from the start value -∞. -/
abbrev maxima (n : ℕ) : FVec Ideal S64x900 .f32 × FVec Ideal S64x900 .f32 × FVec Ideal S64x900 .f32 × FVec Ideal S64x900 .f32 :=
  st_k0_t1 (F := Ideal) Variants.none c none i arg1 harg1 arg2 harg2 arg3 harg3 arg4 harg4 arg5 harg5
    (harg1.unread x0) (harg2.unread x1) (harg3.unread x2) (k0_pay1 (F := Ideal), k0_pay1 (F := Ideal), k0_pay1 (F := Ideal), k0_pay1 (F := Ideal)) n

/-- Trip `k` takes the four running maxima to the four payload updates over the rows it loads. -/
theorem maxima_succ (k : Fin k0_t1_loop.trips) :
    maxima c i arg1 harg1 arg2 harg2 arg3 harg3 arg4 harg4 arg5 harg5 x0 x1 x2 (k.val + 1)
      = (k0_pay8 (maxima c i arg1 harg1 arg2 harg2 arg3 harg3 arg4 harg4 arg5 harg5 x0 x1 x2 k.val).1 (View.ld x0 (Rect.unit (s := S1x288x900) (k0_off1 k) S1x16x900.size (k0_off1_inb k))) (View.ld x1 (Rect.unit (s := S288x64) (k0_off2 k) S16x64.size (k0_off2_inb k))),
         k0_pay9 (maxima c i arg1 harg1 arg2 harg2 arg3 harg3 arg4 harg4 arg5 harg5 x0 x1 x2 k.val).2.1 (View.ld x0 (Rect.unit (s := S1x288x900) (k0_off1 k) S1x16x900.size (k0_off1_inb k))) (View.ld x2 (Rect.unit (s := S288x64) (k0_off2 k) S16x64.size (k0_off2_inb k))),
         k0_pay10 (maxima c i arg1 harg1 arg2 harg2 arg3 harg3 arg4 harg4 arg5 harg5 x0 x1 x2 k.val).2.2.1 (View.ld x0 (Rect.unit (s := S1x288x900) (k0_off1 k) S1x16x900.size (k0_off1_inb k))) (View.ld x1 (Rect.unit (s := S288x64) (k0_off2 k) S16x64.size (k0_off2_inb k))),
         k0_pay11 (maxima c i arg1 harg1 arg2 harg2 arg3 harg3 arg4 harg4 arg5 harg5 x0 x1 x2 k.val).2.2.2 (View.ld x0 (Rect.unit (s := S1x288x900) (k0_off1 k) S1x16x900.size (k0_off1_inb k))) (View.ld x2 (Rect.unit (s := S288x64) (k0_off2 k) S16x64.size (k0_off2_inb k)))) := by
  show st_k0_t1 (F := Ideal) Variants.none c none i arg1 harg1 arg2 harg2 arg3 harg3 arg4 harg4 arg5 harg5 _ _ _ _ (k.val + 1) = _
  rw [st_k0_t1_succ, trip_eq, harg1.read_unread, harg2.read_unread, harg3.read_unread]

/-- Before trip `n` each running maximum is the maximum over the first `n` blocks of sixteen window positions. -/
theorem maxima_eq (o : Fin 64) (s : Fin 900) : ∀ n : ℕ, n ≤ k0_t1_loop.trips →
    (maxima c i arg1 harg1 arg2 harg2 arg3 harg3 arg4 harg4 arg5 harg5 x0 x1 x2 n).1 (ix2 o s) = runMax (B := 16) (termPos x0 x1 o s) n
    ∧ (maxima c i arg1 harg1 arg2 harg2 arg3 harg3 arg4 harg4 arg5 harg5 x0 x1 x2 n).2.1 (ix2 o s) = runMax (B := 16) (termPos x0 x2 o s) n
    ∧ (maxima c i arg1 harg1 arg2 harg2 arg3 harg3 arg4 harg4 arg5 harg5 x0 x1 x2 n).2.2.1 (ix2 o s) = runMax (B := 16) (termNeg x0 x1 o s) n
    ∧ (maxima c i arg1 harg1 arg2 harg2 arg3 harg3 arg4 harg4 arg5 harg5 x0 x1 x2 n).2.2.2 (ix2 o s) = runMax (B := 16) (termNeg x0 x2 o s) n
  | 0, _ => ⟨pay1_apply (ix2 o s), pay1_apply (ix2 o s), pay1_apply (ix2 o s), pay1_apply (ix2 o s)⟩
  | n + 1, hn => by
    have hlt : n < k0_t1_loop.trips := hn
    have h18 : n < 18 := by rw [← trips_eq]; exact hlt
    obtain ⟨ih1, ih2, ih3, ih4⟩ := maxima_eq o s n (Nat.le_of_lt hlt)
    have hb : ∀ r : Fin 16, 16 * n + r.val < 288 := fun r => by have := r.isLt; omega
    have hst : maxima c i arg1 harg1 arg2 harg2 arg3 harg3 arg4 harg4 arg5 harg5 x0 x1 x2 (n + 1) = _ := maxima_succ c i arg1 harg1 arg2 harg2 arg3 harg3 arg4 harg4 arg5 harg5 x0 x1 x2 ⟨n, hlt⟩
    rw [hst]
    dsimp only
    refine ⟨?_, ?_, ?_, ?_⟩
    · rw [pay8_apply, ih1]
      show _ = max _ _
      congr 1
      refine Finset.sup_congr rfl fun r _ => ?_
      rw [dif_pos (hb r), ld_patch x0 ⟨n, hlt⟩ r s (hb r), ld_weight x1 ⟨n, hlt⟩ r o (hb r)]
      rfl
    · rw [pay9_apply, ih2]
      show _ = max _ _
      congr 1
      refine Finset.sup_congr rfl fun r _ => ?_
      rw [dif_pos (hb r), ld_patch x0 ⟨n, hlt⟩ r s (hb r), ld_weight x2 ⟨n, hlt⟩ r o (hb r)]
      rfl
    · rw [pay10_apply, ih3]
      show _ = max _ _
      congr 1
      refine Finset.sup_congr rfl fun r _ => ?_
      rw [dif_pos (hb r), ld_patch x0 ⟨n, hlt⟩ r s (hb r), ld_weight x1 ⟨n, hlt⟩ r o (hb r)]
      rfl
    · rw [pay11_apply, ih4]
      show _ = max _ _
      congr 1
      refine Finset.sup_congr rfl fun r _ => ?_
      rw [dif_pos (hb r), ld_patch x0 ⟨n, hlt⟩ r s (hb r), ld_weight x2 ⟨n, hlt⟩ r o (hb r)]
      rfl

end Trips

/-! ## The body's stored value -/

theorem hz3 : (![0, 0, 0] : Fin 3 → Nat) = fun _ => 0 := funext fun a => by fin_cases a <;> rfl
theorem hz1 : (![0] : Fin 1 → Nat) = fun _ => 0 := funext fun a => by fin_cases a; rfl

/-- The block the body leaves in the result window, at (row o, pixel s). -/
def blockAt (x0 : Vec Ideal S1x288x900 .f32) (x1 x2 : Vec Ideal S288x64 .f32) (x3 : Vec Ideal S64 .f32) (o : Fin 64) (s : Fin 900) : EReal :=
  Ideal.exp (Finset.univ.sup (termPos x0 x1 o s)) - Ideal.exp (Finset.univ.sup (termPos x0 x2 o s))
    - Ideal.exp (Finset.univ.sup (termNeg x0 x1 o s)) + Ideal.exp (Finset.univ.sup (termNeg x0 x2 o s)) + x3 (ix1 o)

/-- THE BODY'S VALUE: what the run stores into the result window is `blockAt` of the four input blocks. -/
theorem kernelRun_apply (c : Dev nD) (i : grid0.Coords)
    (arg1 : Memref sig .tc .vmem S1x288x900 .f32) (harg1 : arg1.IsWhole) (arg2 : Memref sig .tc .vmem S288x64 .f32) (harg2 : arg2.IsWhole)
    (arg3 : Memref sig .tc .vmem S288x64 .f32) (harg3 : arg3.IsWhole) (arg4 : Memref sig .tc .vmem S64 .f32) (harg4 : arg4.IsWhole)
    (arg5 : Memref sig .tc .vmem S1x64x900 .f32) (harg5 : arg5.IsWhole)
    (x0 : Vec Ideal S1x288x900 .f32) (x1 x2 : Vec Ideal S288x64 .f32) (x3 : Vec Ideal S64 .f32) (o : Fin 64) (s : Fin 900) :
    (kernelRun (F := Ideal) c i arg1 harg1 arg2 harg2 arg3 harg3 arg4 harg4 arg5 harg5 x0 x1 x2 x3).1 (ix3 (0 : Fin 1) o s)
      = blockAt x0 x1 x2 x3 o s := by
  unfold kernelRun
  dsimp only
  rw [View.canon_unit_zero hz3]
  obtain ⟨e1, e2, e3, e4⟩ := maxima_eq c i arg1 harg1 arg2 harg2 arg3 harg3 arg4 harg4 arg5 harg5 x0 x1 x2 o s k0_t1_loop.trips (le_refl _)
  rw [pay2_apply]
  show Ideal.exp ((maxima c i arg1 harg1 arg2 harg2 arg3 harg3 arg4 harg4 arg5 harg5 x0 x1 x2 k0_t1_loop.trips).1 (ix2 o s)) - _ - _ + _ + _ = _
  rw [e1, e2, e3, e4]
  simp only [View.readAt_eq_ld, harg4.read_unread]
  have hall : ∀ f : Fin 288 → EReal, runMax (B := 16) f k0_t1_loop.trips = Finset.univ.sup f := fun f => by
    rw [trips_eq]; exact runMax_eq (B := 16) (nb := 18) f
  rw [hall, hall, hall, hall, ld_bias]
  rfl

end Cert.KernelIdeal.Val

end
-- ==== Proof.LibLayout.lean ====
/-
  Layout facts of the morphological layer, for any element type: the im2col array of a 3 × 3 window read at an
  index, its flattening over the pixels, a weight array read flat, and the result array unflattened.
-/
import Idealize.ShloMosaic.Lib.Pipeline.Value
import Idealize.ShloMosaic.Lib.ValueIdx
import proofs.«175772_j20409684591419_1_alg».proof.Proof.Spec

noncomputable section

namespace Cert.Morph

open Idealize.ShloMosaic Idealize.ShloMosaic.ValueIdx

abbrev SP : Shape := ⟨4, ![8, 32, 30, 30]⟩
abbrev SP1 : Shape := ⟨5, ![8, 1, 32, 30, 30]⟩
abbrev SP9 : Shape := ⟨5, ![8, 9, 32, 30, 30]⟩
abbrev SW : Shape := ⟨4, ![8, 288, 30, 30]⟩
abbrev SWF : Shape := ⟨3, ![8, 288, 900]⟩
abbrev SKF : Shape := ⟨2, ![288, 64]⟩
abbrev SYF : Shape := ⟨3, ![8, 64, 900]⟩

variable {α : Type}

theorem slices00 : SX.Slices ![0, 0, 0, 0] SP := by decide
theorem slices01 : SX.Slices ![0, 0, 0, 1] SP := by decide
theorem slices02 : SX.Slices ![0, 0, 0, 2] SP := by decide
theorem slices10 : SX.Slices ![0, 0, 1, 0] SP := by decide
theorem slices11 : SX.Slices ![0, 0, 1, 1] SP := by decide
theorem slices12 : SX.Slices ![0, 0, 1, 2] SP := by decide
theorem slices20 : SX.Slices ![0, 0, 2, 0] SP := by decide
theorem slices21 : SX.Slices ![0, 0, 2, 1] SP := by decide
theorem slices22 : SX.Slices ![0, 0, 2, 2] SP := by decide
theorem unitAxis : SP.BroadcastsInDim SP1 (![0, 2, 3, 4] : Fin 4 → Fin SP1.rank) := by decide
theorem joins9 : Shape.Concatenates [SP1, SP1, SP1, SP1, SP1, SP1, SP1, SP1, SP1] SP9 1 := by decide
theorem flattens : SP9.ShapeCasts SW := by decide

/-- im2col of the 3 × 3 window: the nine shifted 30 × 30 slices of the image, each given a unit axis, joined along it in
    the order (di, dj) = (0,0), (0,1), …, (2,2), and that axis flattened with the channel axis. -/
def im2col (x : SX.Idx → α) : SW.Idx → α :=
  shapeCast SW (concatenate SP9 1
    [⟨SP1, broadcastInDim SP1 ![0, 2, 3, 4] unitAxis (extractStridedSlice SP ![0, 0, 0, 0] x slices00)⟩,
     ⟨SP1, broadcastInDim SP1 ![0, 2, 3, 4] unitAxis (extractStridedSlice SP ![0, 0, 0, 1] x slices01)⟩,
     ⟨SP1, broadcastInDim SP1 ![0, 2, 3, 4] unitAxis (extractStridedSlice SP ![0, 0, 0, 2] x slices02)⟩,
     ⟨SP1, broadcastInDim SP1 ![0, 2, 3, 4] unitAxis (extractStridedSlice SP ![0, 0, 1, 0] x slices10)⟩,
     ⟨SP1, broadcastInDim SP1 ![0, 2, 3, 4] unitAxis (extractStridedSlice SP ![0, 0, 1, 1] x slices11)⟩,
     ⟨SP1, broadcastInDim SP1 ![0, 2, 3, 4] unitAxis (extractStridedSlice SP ![0, 0, 1, 2] x slices12)⟩,
     ⟨SP1, broadcastInDim SP1 ![0, 2, 3, 4] unitAxis (extractStridedSlice SP ![0, 0, 2, 0] x slices20)⟩,
     ⟨SP1, broadcastInDim SP1 ![0, 2, 3, 4] unitAxis (extractStridedSlice SP ![0, 0, 2, 1] x slices21)⟩,
     ⟨SP1, broadcastInDim SP1 ![0, 2, 3, 4] unitAxis (extractStridedSlice SP ![0, 0, 2, 2] x slices22)⟩]
    joins9) flattens

/-- The slice of the image at window offset `(di, dj)`, given its unit axis, read at an index: the unit coordinate is
    dropped and the offset is added to the pixel. -/
theorem slicePiece_apply (x : SX.Idx → α) (di dj : Nat) (hs : SX.Slices ![0, 0, di, dj] SP) (b : Fin 8) (u : Fin 1) (c : Fin 32)
    (h w : Fin 30) (hh : h.val + di < 32) (hw : w.val + dj < 32) :
    broadcastInDim SP1 ![0, 2, 3, 4] unitAxis (extractStridedSlice SP ![0, 0, di, dj] x hs) (ix5 b u c h w)
      = x (ix4 b c (⟨h.val + di, hh⟩ : Fin 32) (⟨w.val + dj, hw⟩ : Fin 32)) := by
  refine (broadcastInDim_apply _ unitAxis _ (ix5 b u c h w) (ix4 b c h w) fun a => ?_).trans ?_
  · -- no axis of the slice has extent one: coordinate a of the slice is coordinate 0, 2, 3, 4 of the piece
    match a with
    | ⟨0, _⟩ => rfl
    | ⟨1, _⟩ => rfl
    | ⟨2, _⟩ => rfl
    | ⟨3, _⟩ => rfl
  · refine extractStridedSlice_apply _ x hs (ix4 b c h w) _ fun a => ?_
    match a with
    | ⟨0, _⟩ => exact (Nat.zero_add _).symm
    | ⟨1, _⟩ => exact (Nat.zero_add _).symm
    | ⟨2, _⟩ => exact Nat.add_comm _ _
    | ⟨3, _⟩ => exact Nat.add_comm _ _

/-- The nine shifted slices, each with its unit axis, as a family: entry `3 di + dj` is the slice at offset `(di, dj)`. -/
private def pieces (x : SX.Idx → α) : Fin 9 → (SP1.Idx → α) :=
  ![broadcastInDim SP1 ![0, 2, 3, 4] unitAxis (extractStridedSlice SP ![0, 0, 0, 0] x slices00),
    broadcastInDim SP1 ![0, 2, 3, 4] unitAxis (extractStridedSlice SP ![0, 0, 0, 1] x slices01),
    broadcastInDim SP1 ![0, 2, 3, 4] unitAxis (extractStridedSlice SP ![0, 0, 0, 2] x slices02),
    broadcastInDim SP1 ![0, 2, 3, 4] unitAxis (extractStridedSlice SP ![0, 0, 1, 0] x slices10),
    broadcastInDim SP1 ![0, 2, 3, 4] unitAxis (extractStridedSlice SP ![0, 0, 1, 1] x slices11),
    broadcastInDim SP1 ![0, 2, 3, 4] unitAxis (extractStridedSlice SP ![0, 0, 1, 2] x slices12),
    broadcastInDim SP1 ![0, 2, 3, 4] unitAxis (extractStridedSlice SP ![0, 0, 2, 0] x slices20),
    broadcastInDim SP1 ![0, 2, 3, 4] unitAxis (extractStridedSlice SP ![0, 0, 2, 1] x slices21),
    broadcastInDim SP1 ![0, 2, 3, 4] unitAxis (extractStridedSlice SP ![0, 0, 2, 2] x slices22)]

/-- The nine pieces joined along the unit axis, read at an index: coordinate `3 di + dj` of the joined axis names the
    slice at window offset `(di, dj)`. -/
private theorem joined_apply (x : SX.Idx → α) (b : Fin 8) (di dj : Fin 3) (c : Fin 32) (h w : Fin 30) :
    concatenate SP9 1 (List.ofFn fun n : Fin 9 => (⟨SP1, pieces x n⟩ : (s : Shape) × (s.Idx → α))) joins9
        (ix5 b (⟨3 * di.val + dj.val, by have := di.isLt; have := dj.isLt; omega⟩ : Fin 9) c h w)
      = x (ix4 b c (⟨h.val + di.val, by have := h.isLt; have := di.isLt; omega⟩ : Fin 32)
          (⟨w.val + dj.val, by have := w.isLt; have := dj.isLt; omega⟩ : Fin 32)) := by
  -- every piece has extent one along the joined axis, so the piece is the one the joined coordinate names,
  -- read at the same other coordinates
  refine (concatenate_ofFn_unit_apply (t := SP9) (s₁ := SP1) (1 : Fin 5) (pieces x) joins9 rfl rfl _
    (⟨3 * di.val + dj.val, by have := di.isLt; have := dj.isLt; omega⟩ : Fin 9) rfl
    (ix5 b (0 : Fin 1) c h w) (fun a ha => match a, ha with
      | ⟨0, _⟩, _ => rfl
      | ⟨1, _⟩, ha => absurd rfl ha
      | ⟨2, _⟩, _ => rfl
      | ⟨3, _⟩, _ => rfl
      | ⟨4, _⟩, _ => rfl)).trans ?_
  -- piece 3 di + dj is the slice at offset (di, dj)
  match di, dj with
  | ⟨0, _⟩, ⟨0, _⟩ => exact slicePiece_apply x 0 0 slices00 b 0 c h w _ _
  | ⟨0, _⟩, ⟨1, _⟩ => exact slicePiece_apply x 0 1 slices01 b 0 c h w _ _
  | ⟨0, _⟩, ⟨2, _⟩ => exact slicePiece_apply x 0 2 slices02 b 0 c h w _ _
  | ⟨1, _⟩, ⟨0, _⟩ => exact slicePiece_apply x 1 0 slices10 b 0 c h w _ _
  | ⟨1, _⟩, ⟨1, _⟩ => exact slicePiece_apply x 1 1 slices11 b 0 c h w _ _
  | ⟨1, _⟩, ⟨2, _⟩ => exact slicePiece_apply x 1 2 slices12 b 0 c h w _ _
  | ⟨2, _⟩, ⟨0, _⟩ => exact slicePiece_apply x 2 0 slices20 b 0 c h w _ _
  | ⟨2, _⟩, ⟨1, _⟩ => exact slicePiece_apply x 2 1 slices21 b 0 c h w _ _
  | ⟨2, _⟩, ⟨2, _⟩ => exact slicePiece_apply x 2 2 slices22 b 0 c h w _ _

/-- Window position `p` of pixel `(h, w)` holds `x[b, p % 32, h + p / 96, w + p / 32 % 3]`. -/
theorem im2col_apply (x : SX.Idx → α) (b : Fin 8) (p : Fin 288) (h w : Fin 30) :
    im2col x (ix4 b p h w) = x (ix4 b (⟨p.val % 32, Nat.mod_lt _ (by decide)⟩ : Fin 32)
      (⟨h.val + p.val / 96, by have := p.isLt; have := h.isLt; omega⟩ : Fin 32)
      (⟨w.val + p.val / 32 % 3, by have := w.isLt; omega⟩ : Fin 32)) := by
  -- the flattened axis splits as p = 32 (3 (p / 96) + p / 32 % 3) + p % 32: the joined coordinate of window offset
  -- (p / 96, p / 32 % 3), and the channel
  refine (shapeCast_apply _ flattens (ix4 b p h w)
    (ix5 b (⟨3 * (p.val / 96) + p.val / 32 % 3, by have := p.isLt; omega⟩ : Fin 9)
      (⟨p.val % 32, Nat.mod_lt _ (by decide)⟩ : Fin 32) h w) ?_).trans ?_
  · rw [Shape.rowMajor_val_five, Shape.rowMajor_val_four]
    show (((b.val * 9 + (3 * (p.val / 96) + p.val / 32 % 3)) * 32 + p.val % 32) * 30 + h.val) * 30 + w.val
      = ((b.val * 288 + p.val) * 30 + h.val) * 30 + w.val
    omega
  · exact joined_apply x b (⟨p.val / 96, by have := p.isLt; omega⟩ : Fin 3) (⟨p.val / 32 % 3, Nat.mod_lt _ (by decide)⟩ : Fin 3) _ h w

/-- The pixels flattened: pixel `s` is `(s / 30, s % 30)`. -/
theorem flat_apply (y : SW.Idx → α) (hc : SW.ShapeCasts SWF) (b : Fin 8) (p : Fin 288) (s : Fin 900) :
    shapeCast SWF y hc (ix3 b p s) = y (ix4 b p (⟨s.val / 30, by have := s.isLt; omega⟩ : Fin 30) (⟨s.val % 30, Nat.mod_lt _ (by decide)⟩ : Fin 30)) :=
  -- both indices sit at row-major position ((288 b + p) · 900 + s), since s = 30 (s / 30) + s % 30
  shapeCast_apply y hc _ _ (by
    rw [Shape.rowMajor_val_four, Shape.rowMajor_val_three]
    show ((b.val * 288 + p.val) * 30 + s.val / 30) * 30 + s.val % 30 = (b.val * 288 + p.val) * 900 + s.val
    omega)

/-- A weight array read flat: row `p` is `(p / 96, p / 32 % 3, p % 32)`. -/
theorem wflat_apply (k : SK.Idx → α) (hc : SK.ShapeCasts SKF) (p : Fin 288) (o : Fin 64) :
    shapeCast SKF k hc (ix2 p o) = k (ix4 (⟨p.val / 96, by have := p.isLt; omega⟩ : Fin 3) (⟨p.val / 32 % 3, Nat.mod_lt _ (by decide)⟩ : Fin 3)
      (⟨p.val % 32, Nat.mod_lt _ (by decide)⟩ : Fin 32) o) :=
  -- both indices sit at row-major position 64 p + o, since p = 96 (p / 96) + 32 (p / 32 % 3) + p % 32
  shapeCast_apply k hc _ _ (by
    rw [Shape.rowMajor_val_four, Shape.rowMajor_val_two]
    show ((p.val / 96 * 3 + p.val / 32 % 3) * 32 + p.val % 32) * 64 + o.val = p.val * 64 + o.val
    omega)

/-- The result unflattened: pixel `(h, w)` is `30 h + w`. -/
theorem unflat_apply (y : SYF.Idx → α) (hc : SYF.ShapeCasts SY) (b : Fin 8) (o : Fin 64) (h w : Fin 30) :
    shapeCast SY y hc (ix4 b o h w) = y (ix3 b o (⟨30 * h.val + w.val, by have := h.isLt; have := w.isLt; omega⟩ : Fin 900)) :=
  -- both indices sit at row-major position (64 b + o) · 900 + 30 h + w
  shapeCast_apply y hc _ _ (by
    rw [Shape.rowMajor_val_three, Shape.rowMajor_val_four]
    show (b.val * 64 + o.val) * 900 + (30 * h.val + w.val) = ((b.val * 64 + o.val) * 30 + h.val) * 30 + w.val
    omega)

end Cert.Morph

end
-- ==== Proof.KernelIdealRun.lean ====
/-
  The kernel program's run, read on the extended reals: after @main the result array holds the layer `G` of the four
  argument arrays, and these are unchanged.

  When the region is entered the first window's array is the im2col array of the image with its pixels flattened, the
  second and third the weight arrays read flat, the fourth the bias.  Grid point `t` is batch entry `t`: its patch block
  is row `t` of the first array, its other three blocks are the whole arrays, and the block it writes back is row `t` of
  the [8, 64, 900] result — the eight rows tile it.  Each written block is the body's value of the point's input blocks,
  which at (row o, pixel s) is `G` at (t, o, s / 30, s % 30); the operation after the region unflattens the pixels.
-/
import proofs.«175772_j20409684591419_1_alg».proof.Proof.KernelIdealValue
import proofs.«175772_j20409684591419_1_alg».proof.Proof.LibLayout
import Idealize.ShloMosaic.Lib.StableHlo.Run

set_option maxRecDepth 16384

noncomputable section

namespace Cert.KernelIdeal.Val

open Idealize.ShloMosaic Idealize.ShloMosaic.TcCoe Idealize.ShloMosaic.Tactic Idealize.ShloMosaic.ValueIdx Idealize.SL.Sem
open Idealize.ShloMosaic.Pipeline (Dat)
open Cert.KernelIdeal Cert.KernelIdeal.Gen Cert.KernelIdeal.Fr Cert.KernelIdeal.Pay Cert.Morph

variable (m : (ℓ : Loc nD τ sig) → Buf (Elt Ideal) ℓ) (ρ : Dev nD → PrngReg)

/-! ## The argument arrays, and the arrays the region finds -/

abbrev argX (c : Dev nD) : SX.Idx → EReal := m ((c : Thread nD τ).loc main_arg0)
abbrev argK1 (c : Dev nD) : SK.Idx → EReal := m ((c : Thread nD τ).loc main_arg1)
abbrev argK2 (c : Dev nD) : SK.Idx → EReal := m ((c : Thread nD τ).loc main_arg2)
abbrev argB (c : Dev nD) : SB.Idx → EReal := m ((c : Thread nD τ).loc main_arg3)

/-- The first window's array: the im2col array of the image, pixels flattened. -/
theorem V_patches (c : Dev nD) : (V m c main_v20 : SWF.Idx → EReal) = shapeCast SWF (im2col (argX m c)) (by decide) := by
  dsimp only [V, V0]
  simp only [hostOps0, List.flatten_cons, List.flatten_nil, List.append_nil]
  after_results
  rfl

/-- The second window's array: the first weight array read flat. -/
theorem V_w1 (c : Dev nD) : (V m c main_v21 : SKF.Idx → EReal) = shapeCast SKF (argK1 m c) (by decide) := by
  dsimp only [V, V0]
  simp only [hostOps0, List.flatten_cons, List.flatten_nil, List.append_nil]
  after_results
  rfl

/-- The third window's array: the second weight array read flat. -/
theorem V_w2 (c : Dev nD) : (V m c main_v22 : SKF.Idx → EReal) = shapeCast SKF (argK2 m c) (by decide) := by
  dsimp only [V, V0]
  simp only [hostOps0, List.flatten_cons, List.flatten_nil, List.append_nil]
  after_results
  rfl

/-- The fourth window's array: the bias. -/
theorem V_bias (c : Dev nD) : (V m c main_arg3 : SB.Idx → EReal) = argB m c :=
  V_arg m main_arg3 (.inr (.inr (.inr rfl))) c

/-! ## The blocks at a grid point -/

/-- The windows' block indices at point `t`: the patch window and the result window are on row `t`, the others whole. -/
theorem idx_facts : ∀ t : Fin cfg0.N, win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 1) = 0
    ∧ win0_4.index t (0 : Fin 3) = t.val ∧ win0_4.index t (1 : Fin 3) = 0 ∧ win0_4.index t (2 : Fin 3) = 0 :=
  (by decide +kernel : ∀ t : Fin grid0.N, _)

theorem point_lt (t : Fin cfg0.N) : t.val < 8 :=
  Nat.lt_of_lt_of_eq t.isLt (show cfg0.N = 8 from N_0)

/-- The four input blocks at point `t`, at their literal types. -/
abbrev blk0 (c : Dev nD) (t : Fin cfg0.N) : Vec Ideal S1x288x900 .f32 := iblk m c 0 t
abbrev blk1 (c : Dev nD) (t : Fin cfg0.N) : Vec Ideal S288x64 .f32 := iblk m c 1 t
abbrev blk2 (c : Dev nD) (t : Fin cfg0.N) : Vec Ideal S288x64 .f32 := iblk m c 2 t
abbrev blk3 (c : Dev nD) (t : Fin cfg0.N) : Vec Ideal S64 .f32 := iblk m c 3 t

/-- The patch block at point `t` is row `t` of the first array. -/
theorem blk0_apply (c : Dev nD) (t : Fin cfg0.N) (p : Fin 288) (s : Fin 900) :
    blk0 m c t (ix3 (0 : Fin 1) p s) = (V m c main_v20 : SWF.Idx → EReal) (ix3 (⟨t.val, point_lt t⟩ : Fin 8) p s) := by
  obtain ⟨e0, e1, e2, -⟩ := idx_facts t
  show (V m c main_v20 : SWF.Idx → EReal) (((cfg0.win 0).blk t).view.emb (ix3 (0 : Fin 1) p s)) = _
  congr 1
  funext a; apply Fin.ext
  match a with
  | ⟨0, _⟩ => show win0_0.index t (0 : Fin 3) * 1 + 1 * 0 = t.val; omega
  | ⟨1, _⟩ => show win0_0.index t (1 : Fin 3) * 288 + 1 * p.val = p.val; omega
  | ⟨2, _⟩ => show win0_0.index t (2 : Fin 3) * 900 + 1 * s.val = s.val; omega

/-- The weight blocks are the whole weight arrays, -/
theorem blk1_apply (c : Dev nD) (t : Fin cfg0.N) (p : Fin 288) (o : Fin 64) :
    blk1 m c t (ix2 p o) = (V m c main_v21 : SKF.Idx → EReal) (ix2 p o) := by
  obtain ⟨-, -, -, e0, e1, -⟩ := idx_facts t
  show (V m c main_v21 : SKF.Idx → EReal) (((cfg0.win 1).blk t).view.emb (ix2 p o)) = _
  congr 1
  funext a; apply Fin.ext
  match a with
  | ⟨0, _⟩ => show win0_1.index t (0 : Fin 2) * 288 + 1 * p.val = p.val; omega
  | ⟨1, _⟩ => show win0_1.index t (1 : Fin 2) * 64 + 1 * o.val = o.val; omega

theorem blk2_apply (c : Dev nD) (t : Fin cfg0.N) (p : Fin 288) (o : Fin 64) :
    blk2 m c t (ix2 p o) = (V m c main_v22 : SKF.Idx → EReal) (ix2 p o) := by
  obtain ⟨-, -, -, -, -, e0, e1, -⟩ := idx_facts t
  show (V m c main_v22 : SKF.Idx → EReal) (((cfg0.win 2).blk t).view.emb (ix2 p o)) = _
  congr 1
  funext a; apply Fin.ext
  match a with
  | ⟨0, _⟩ => show win0_2.index t (0 : Fin 2) * 288 + 1 * p.val = p.val; omega
  | ⟨1, _⟩ => show win0_2.index t (1 : Fin 2) * 64 + 1 * o.val = o.val; omega

/-- and the bias block the whole bias. -/
theorem blk3_apply (c : Dev nD) (t : Fin cfg0.N) (o : Fin 64) :
    blk3 m c t (ix1 o) = (V m c main_arg3 : SB.Idx → EReal) (ix1 o) := by
  obtain ⟨-, -, -, -, -, -, -, e0, -⟩ := idx_facts t
  show (V m c main_arg3 : SB.Idx → EReal) (((cfg0.win 3).blk t).view.emb (ix1 o)) = _
  congr 1
  funext a; apply Fin.ext
  match a with
  | ⟨0, _⟩ => show win0_3.index t (0 : Fin 1) * 64 + 1 * o.val = o.val; omega

/-! ## The block a point writes is the layer's -/

/-- Pixel `s` of a flattened row is `(s / 30, s % 30)`. -/
abbrev pixH (s : Fin 900) : Fin 30 := ⟨s.val / 30, by have := s.isLt; omega⟩
abbrev pixW (s : Fin 900) : Fin 30 := ⟨s.val % 30, Nat.mod_lt _ (by decide)⟩

theorem termPos1_eq (c : Dev nD) (t : Fin cfg0.N) (o : Fin 64) (s : Fin 900) :
    termPos (blk0 m c t) (blk1 m c t) o s
      = fun p => kflat (argK1 m c) p o + logPos (argX m c) ⟨t.val, point_lt t⟩ p (pixH s) (pixW s) := by
  funext p
  unfold termPos logPos
  rw [blk0_apply, blk1_apply, V_patches, V_w1, flat_apply, im2col_apply, wflat_apply]
  rfl

theorem termPos2_eq (c : Dev nD) (t : Fin cfg0.N) (o : Fin 64) (s : Fin 900) :
    termPos (blk0 m c t) (blk2 m c t) o s
      = fun p => kflat (argK2 m c) p o + logPos (argX m c) ⟨t.val, point_lt t⟩ p (pixH s) (pixW s) := by
  funext p
  unfold termPos logPos
  rw [blk0_apply, blk2_apply, V_patches, V_w2, flat_apply, im2col_apply, wflat_apply]
  rfl

theorem termNeg1_eq (c : Dev nD) (t : Fin cfg0.N) (o : Fin 64) (s : Fin 900) :
    termNeg (blk0 m c t) (blk1 m c t) o s
      = fun p => kflat (argK1 m c) p o + logNeg (argX m c) ⟨t.val, point_lt t⟩ p (pixH s) (pixW s) := by
  funext p
  unfold termNeg logNeg
  rw [blk0_apply, blk1_apply, V_patches, V_w1, flat_apply, im2col_apply, wflat_apply]
  rfl

theorem termNeg2_eq (c : Dev nD) (t : Fin cfg0.N) (o : Fin 64) (s : Fin 900) :
    termNeg (blk0 m c t) (blk2 m c t) o s
      = fun p => kflat (argK2 m c) p o + logNeg (argX m c) ⟨t.val, point_lt t⟩ p (pixH s) (pixW s) := by
  funext p
  unfold termNeg logNeg
  rw [blk0_apply, blk2_apply, V_patches, V_w2, flat_apply, im2col_apply, wflat_apply]
  rfl

/-- The body's value of point `t`'s input blocks, at (row o, pixel s), is the layer at (t, o, s / 30, s % 30). -/
theorem block_is_G (c : Dev nD) (t : Fin cfg0.N) (o : Fin 64) (s : Fin 900) :
    blockAt (blk0 m c t) (blk1 m c t) (blk2 m c t) (blk3 m c t) o s
      = Gat (argX m c) (argK1 m c) (argK2 m c) (argB m c) ⟨t.val, point_lt t⟩ o (pixH s) (pixW s) := by
  unfold blockAt Gat branch
  rw [termPos1_eq, termPos2_eq, termNeg1_eq, termNeg2_eq, blk3_apply, V_bias]

/-- The layer over the flattened pixels: the whole [8, 64, 900] result. -/
def Gflat (c : Dev nD) : SYF.Idx → EReal := fun j =>
  Gat (argX m c) (argK1 m c) (argK2 m c) (argB m c) (⟨(j 0).val, (j 0).isLt⟩ : Fin 8) (⟨(j 1).val, (j 1).isLt⟩ : Fin 64)
    (pixH ⟨(j 2).val, (j 2).isLt⟩) (pixW ⟨(j 2).val, (j 2).isLt⟩)

theorem Gflat_apply (c : Dev nD) (b : Fin 8) (o : Fin 64) (s : Fin 900) :
    Gflat m c (ix3 b o s) = Gat (argX m c) (argK1 m c) (argK2 m c) (argB m c) b o (pixH s) (pixW s) := rfl

theorem hz3' : (![0, 0, 0] : Fin 3 → Nat) = fun _ => 0 := funext fun a => by fin_cases a <;> rfl

/-- WHAT POINT `t` WRITES BACK is row `t` of the layer. -/
theorem flushed_eq (c : Dev nD) (t : Fin cfg0.N) :
    (dats m 0 c).flushed 4 t = ((cfg0.win 4).blk t).view.read (Elt Ideal) (Gflat m c) := by
  show (cfg0.win 4).cut (grid0.coords t) ((dats m 0 c).after 4 t) = _
  rw [after0_4]
  obtain ⟨-, -, -, -, -, -, -, -, e0, e1, e2⟩ := idx_facts t
  funext j
  obtain ⟨z, o, s, rfl⟩ : ∃ (z : Fin 1) (o : Fin 64) (s : Fin 900), j = ix3 z o s := ⟨j 0, j 1, j 2, eq_ix3 j⟩
  obtain rfl : z = 0 := Subsingleton.elim _ _
  have hemb : ((cfg0.win 4).blk t).view.emb (ix3 (0 : Fin 1) o s) = (ix3 (⟨t.val, point_lt t⟩ : Fin 8) o s : SYF.Idx) := by
    funext a; apply Fin.ext
    match a with
    | ⟨0, _⟩ => show win0_4.index t (0 : Fin 3) * 1 + 1 * 0 = t.val; omega
    | ⟨1, _⟩ => show win0_4.index t (1 : Fin 3) * 64 + 1 * o.val = o.val; omega
    | ⟨2, _⟩ => show win0_4.index t (2 : Fin 3) * 900 + 1 * s.val = s.val; omega
  show (kernelRun (F := Ideal) c (grid0.coords t) (ms0_0 t) (hs0_0 t) (ms0_1 t) (hs0_1 t) (ms0_2 t) (hs0_2 t) (ms0_3 t) (hs0_3 t) (ms0_4 t) (hs0_4 t)
      (blk0 m c t) (blk1 m c t) (blk2 m c t) (blk3 m c t)).1 (ix3 (0 : Fin 1) o s) = Gflat m c (((cfg0.win 4).blk t).view.emb (ix3 (0 : Fin 1) o s))
  rw [kernelRun_apply, block_is_G, hemb, Gflat_apply]

/-! ## The result array after the write-backs, and after the operation that follows -/

/-- An index of the result array is in point `t`'s block iff each coordinate is in the block's range. -/
theorem mem_blk (t : Fin cfg0.N) (i : SYF.Idx) :
    i ∈ ((cfg0.win 4).blk t).view.set ↔ ∀ a : Fin 3, win0_4.index t a * S1x64x900.size a ≤ (i a).val ∧ (i a).val < win0_4.index t a * S1x64x900.size a + S1x64x900.size a := by
  show i ∈ ((View.whole main_v23).slice (win0_4.rect t)).set ↔ _
  rw [View.set_slice_whole, Rect.mem_set_unit]
  exact Iff.rfl

/-- The eight rows tile the result, so after the run it holds the layer over the flattened pixels. -/
theorem final (c : Dev nD) : (dats m 0 c).arrAt 4 cfg0.N = Gflat m c :=
  (dats m 0 c).arrAt_eq_of_cover 4 (Gflat m c) (fun t _ => flushed_eq m c t) fun i => by
    have h0 : (i 0).val < 8 := (i 0).isLt
    have h1 : (i 1).val < 64 := (i 1).isLt
    have h2 : (i 2).val < 900 := (i 2).isLt
    let t : Fin cfg0.N := ⟨(i 0).val, Nat.lt_of_lt_of_eq h0 (show 8 = cfg0.N from N_0.symm)⟩
    obtain ⟨-, -, -, -, -, -, -, -, e0, e1, e2⟩ := idx_facts t
    refine ⟨t, flush0_4 t, ?_⟩
    rw [mem_blk]
    intro a
    match a with
    | ⟨0, _⟩ => show win0_4.index t (0 : Fin 3) * 1 ≤ (i 0).val ∧ (i 0).val < win0_4.index t (0 : Fin 3) * 1 + 1
                have : (t : Fin cfg0.N).val = (i 0).val := rfl
                omega
    | ⟨1, _⟩ => show win0_4.index t (1 : Fin 3) * 64 ≤ (i 1).val ∧ (i 1).val < win0_4.index t (1 : Fin 3) * 64 + 64; omega
    | ⟨2, _⟩ => show win0_4.index t (2 : Fin 3) * 900 ≤ (i 2).val ∧ (i 2).val < win0_4.index t (2 : Fin 3) * 900 + 900; omega

/-- The operation after the region unflattens the pixels: the program's result is the layer `G`. -/
theorem result_eq (c : Dev nD) :
    (Pipeline.afterTail₀ cfgs (dats m) 0 (V0 m) [hostOps1] c main_v24 : SY.Idx → EReal)
      = G (argX m c) (argK1 m c) (argK2 m c) (argB m c) := by
  unfold Pipeline.afterTail₀
  show StableHlo.after hostOps1 _ (Proc.devRef .tc main_v24) = _
  after_results
  rw [show Pipeline.withArrays spec0 c (V0 m c) (fun w => (dats m 0 c).arrAt w cfg0.N) (Proc.devRef .tc main_v23) = Gflat m c from
    (Pipeline.withArrays_arr spec0 launch0.win.arr_inj c _ _ 4).trans (final m c)]
  funext i
  obtain ⟨b, o, h, w, rfl⟩ : ∃ (b : Fin 8) (o : Fin 64) (h w : Fin 30), i = ix4 b o h w := ⟨i 0, i 1, i 2, i 3, eq_ix4 i⟩
  rw [G_apply]
  refine (unflat_apply (Gflat m c) _ b o h w).trans ?_
  rw [Gflat_apply]
  have eh : pixH (⟨30 * h.val + w.val, by have := h.isLt; have := w.isLt; omega⟩ : Fin 900) = h := Fin.ext (by show (30 * h.val + w.val) / 30 = h.val; have := w.isLt; omega)
  have ew : pixW (⟨30 * h.val + w.val, by have := h.isLt; have := w.isLt; omega⟩ : Fin 900) = w := Fin.ext (by show (30 * h.val + w.val) % 30 = w.val; have := w.isLt; omega)
  rw [eh, ew]

/-! ## The run -/

/-- Every weakly fair execution of the kernel's program terminates with the result array at the layer `G` of the argument
    arrays, and these unchanged. -/
theorem run : θ_run defs (onTc (τ := τ) (main (F := Ideal))) ⟨m, fun _ => 0, ρ⟩ fun r => ∀ c : Dev nD,
      (r.2.mem ((c.tc : Thread nD τ).loc main_v24) : SY.Idx → EReal) = G (argX m c) (argK1 m c) (argK2 m c) (argB m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v24 (Pipeline.mem_restRefs_of main_v24 (by decide) (by decide))).trans (result_eq m c),
     ((h c).2 main_arg0 (Pipeline.mem_restRefs_of main_arg0 (by decide) (by decide))).trans (W_arg m (dats m) main_arg0 (.inl rfl) c),
     ((h c).2 main_arg1 (Pipeline.mem_restRefs_of main_arg1 (by decide) (by decide))).trans (W_arg m (dats m) main_arg1 (.inr (.inl rfl)) c),
     ((h c).2 main_arg2 (Pipeline.mem_restRefs_of main_arg2 (by decide) (by decide))).trans (W_arg m (dats m) main_arg2 (.inr (.inr rfl)) c),
     ((h c).1 3).trans (((dats m 0 c).arrAt_in 3 rfl _).trans ((A_eq m c 3).trans (V_arg m main_arg3 (.inr (.inr (.inr rfl))) c)))⟩)
    (run_main m ρ)

end Cert.KernelIdeal.Val

end
-- ==== Proof.RefIsSpec.lean ====
/-
  The reference's result, stage by stage, is the layer `G` of its four argument arrays.
-/
import proofs.«175772_j20409684591419_1_alg».proof.Proof.Gen.ReferenceIdeal.Read
import proofs.«175772_j20409684591419_1_alg».proof.Proof.Spec
import proofs.«175772_j20409684591419_1_alg».proof.Proof.LibLayout
import Idealize.ShloMosaic.PureOps.Ideal.Laws
import Idealize.ShloMosaic.Lib.ValueIdx
import Idealize.ShloMosaic.Lib.ValueLayout
import Idealize.ShloMosaic.Lib.Pipeline.Value

noncomputable section

namespace Cert.Morph.Ref

open Idealize.ShloMosaic Idealize.ShloMosaic.ValueIdx Cert.ReferenceIdeal Cert.ReferenceIdeal.Gen Cert.ReferenceIdeal.Read

/-! ## The two im2col arrays -/

/-- The reshaped join of the nine shifted slices of the image is the im2col array of the image. -/
theorem v21_is_im2col (x0 : Cert.Morph.SX.Idx → EReal) :
    val_main_v21 (F := Ideal) x0 = Cert.Morph.im2col x0 := rfl

/-- The same chain on the negated image is the im2col array of the negated image. -/
theorem v45_is_im2col (x0 : Cert.Morph.SX.Idx → EReal) :
    val_main_v45 (F := Ideal) x0 = Cert.Morph.im2col (val_main_v25 (F := Ideal) x0) := rfl

/-- The log of the shifted positive part, at window position `p` of pixel `(h, w)`. -/
theorem logPos_at (x0 : Cert.Morph.SX.Idx → EReal) (b : Fin 8) (p : Fin 288) (h w : Fin 30) :
    val_main_v24 (F := Ideal) x0 (ix4 b p h w) = Cert.Morph.logPos x0 b p h w := by
  rw [val_main_v24_apply, val_main_v23_apply, val_main_v22_apply, val_main_cst_apply, v21_is_im2col,
    Cert.Morph.im2col_apply]
  unfold Cert.Morph.logPos Cert.Morph.patch Cert.Morph.shift
  simp only [Ideal.hostUnary_log_def, Ideal.maximumf_def, Ideal.ofBits_def]

/-- The log of the shifted negative part, at window position `p` of pixel `(h, w)`. -/
theorem logNeg_at (x0 : Cert.Morph.SX.Idx → EReal) (b : Fin 8) (p : Fin 288) (h w : Fin 30) :
    val_main_v48 (F := Ideal) x0 (ix4 b p h w) = Cert.Morph.logNeg x0 b p h w := by
  rw [val_main_v48_apply, val_main_v47_apply, val_main_v46_apply, val_main_cst_0_apply, v45_is_im2col,
    Cert.Morph.im2col_apply, val_main_v25_apply]
  unfold Cert.Morph.logNeg Cert.Morph.patch Cert.Morph.shift
  simp only [Ideal.hostUnary_log_def, Ideal.maximumf_def, Ideal.ofBits_def, Ideal.hostNegf_def, Ideal.negf_def]

/-! ## The weights read flat -/

/-- The first weight array reshaped to 288 rows, at row `p` and output channel `o`. -/
theorem k1flat_at (x1 : Cert.Morph.SK.Idx → EReal) (p : Fin 288) (o : Fin 64) :
    val_main_v0 (F := Ideal) x1 (ix2 p o) = Cert.Morph.kflat x1 p o :=
  Cert.Morph.wflat_apply x1 shapeCasts_S3x3x32x64_S288x64 p o

/-- The second weight array reshaped to 288 rows, at row `p` and output channel `o`. -/
theorem k2flat_at (x2 : Cert.Morph.SK.Idx → EReal) (p : Fin 288) (o : Fin 64) :
    val_main_v1 (F := Ideal) x2 (ix2 p o) = Cert.Morph.kflat x2 p o :=
  Cert.Morph.wflat_apply x2 shapeCasts_S3x3x32x64_S288x64 p o

/-! ## The summands of the four max-plus products

Each branch adds, at `(b, p, o, h, w)`, a log-patch array (broadcast along the output channel `o`) and a flat weight
array (broadcast along the batch and the pixel). -/

/-- A log-patch array broadcast along the output channel is read at `(b, p, h, w)`. -/
theorem idx_logPatch (b : Fin 8) (p : Fin 288) (o : Fin 64) (h w : Fin 30) :
    idx_main_v49 (idx_main_v51 (ix5 b p o h w)) = ix4 b p h w := by
  funext a; fin_cases a <;> rfl

/-- A flat weight array broadcast along the batch and the pixel is read at `(p, o)`. -/
theorem idx_weight (b : Fin 8) (p : Fin 288) (o : Fin 64) (h w : Fin 30) :
    idx_main_v50 (idx_main_v52 (ix5 b p o h w)) = ix2 p o := by
  funext a; fin_cases a <;> rfl

/-- Branch (positive, k1): the summand. -/
theorem sum53_at (x0 : Cert.Morph.SX.Idx → EReal) (x1 : Cert.Morph.SK.Idx → EReal) (b : Fin 8) (p : Fin 288)
    (o : Fin 64) (h w : Fin 30) :
    val_main_v53 (F := Ideal) x0 x1 (ix5 b p o h w) = Cert.Morph.logPos x0 b p h w + Cert.Morph.kflat x1 p o := by
  rw [val_main_v53_apply, val_main_v51_apply, val_main_v49_apply, val_main_v52_apply, val_main_v50_apply,
    show idx_main_v49 (idx_main_v51 (ix5 b p o h w)) = ix4 b p h w from idx_logPatch b p o h w,
    show idx_main_v50 (idx_main_v52 (ix5 b p o h w)) = ix2 p o from idx_weight b p o h w,
    logPos_at, k1flat_at, Ideal.addf_def]

/-- Branch (positive, k2): the summand. -/
theorem sum60_at (x0 : Cert.Morph.SX.Idx → EReal) (x2 : Cert.Morph.SK.Idx → EReal) (b : Fin 8) (p : Fin 288)
    (o : Fin 64) (h w : Fin 30) :
    val_main_v60 (F := Ideal) x0 x2 (ix5 b p o h w) = Cert.Morph.logPos x0 b p h w + Cert.Morph.kflat x2 p o := by
  rw [val_main_v60_apply, val_main_v58_apply, val_main_v56_apply, val_main_v59_apply, val_main_v57_apply,
    show idx_main_v56 (idx_main_v58 (ix5 b p o h w)) = ix4 b p h w from idx_logPatch b p o h w,
    show idx_main_v57 (idx_main_v59 (ix5 b p o h w)) = ix2 p o from idx_weight b p o h w,
    logPos_at, k2flat_at, Ideal.addf_def]

/-- Branch (negative, k1): the summand. -/
theorem sum67_at (x0 : Cert.Morph.SX.Idx → EReal) (x1 : Cert.Morph.SK.Idx → EReal) (b : Fin 8) (p : Fin 288)
    (o : Fin 64) (h w : Fin 30) :
    val_main_v67 (F := Ideal) x0 x1 (ix5 b p o h w) = Cert.Morph.logNeg x0 b p h w + Cert.Morph.kflat x1 p o := by
  rw [val_main_v67_apply, val_main_v65_apply, val_main_v63_apply, val_main_v66_apply, val_main_v64_apply,
    show idx_main_v63 (idx_main_v65 (ix5 b p o h w)) = ix4 b p h w from idx_logPatch b p o h w,
    show idx_main_v64 (idx_main_v66 (ix5 b p o h w)) = ix2 p o from idx_weight b p o h w,
    logNeg_at, k1flat_at, Ideal.addf_def]

/-- Branch (negative, k2): the summand. -/
theorem sum74_at (x0 : Cert.Morph.SX.Idx → EReal) (x2 : Cert.Morph.SK.Idx → EReal) (b : Fin 8) (p : Fin 288)
    (o : Fin 64) (h w : Fin 30) :
    val_main_v74 (F := Ideal) x0 x2 (ix5 b p o h w) = Cert.Morph.logNeg x0 b p h w + Cert.Morph.kflat x2 p o := by
  rw [val_main_v74_apply, val_main_v72_apply, val_main_v70_apply, val_main_v73_apply, val_main_v71_apply,
    show idx_main_v70 (idx_main_v72 (ix5 b p o h w)) = ix4 b p h w from idx_logPatch b p o h w,
    show idx_main_v71 (idx_main_v73 (ix5 b p o h w)) = ix2 p o from idx_weight b p o h w,
    logNeg_at, k2flat_at, Ideal.addf_def]

/-! ## The reduce over the window positions -/

/-- The word `0xFF800000` is `-∞`, the bottom of the extended reals. -/
theorem bits_negInf : Ideal.ofBits .f32 0xFF800000#32 = (⊥ : EReal) := by
  simp [Ideal.ofBits, Ideal.ieee]

/-- The reduced index `(b, o, h, w)` with window position `p` put back on axis 1 is `(b, p, o, h, w)`. -/
theorem lift_ix4 (hr : S8x288x64x30x30.Reduces [1] S8x64x30x30) (b : Fin 8) (o : Fin 64) (h w : Fin 30)
    (p : Fin (S8x288x64x30x30.size 1)) :
    hr.lift (ix4 b o h w) p = ix5 b (⟨p.val, p.isLt⟩ : Fin 288) o h w := by
  funext c; apply Fin.ext
  fin_cases c <;> rfl

/-- From `-∞`, a reduce with a maximum body over the 288 window positions is, at `(b, o, h, w)`, their supremum. -/
theorem reduce_max_at (x : S8x288x64x30x30.Idx → EReal) (b : Fin 8) (o : Fin 64) (h w : Fin 30) :
    Host.reduce (FloatOps.maximumf (F := Ideal) (φ := .f32)) x (constant (F := Ideal) S_ .f32 0xFF800000#32)
        reducesTo_S8x288x64x30x30_S8x64x30x30_d1 h_S_ (ix4 b o h w)
      = Finset.univ.sup fun p : Fin 288 => x (ix5 b p o h w) := by
  have hr : S8x288x64x30x30.Reduces [1] S8x64x30x30 := by decide
  refine (Host.reduce_eq_fold_single (FloatOps.maximumf (F := Ideal) (φ := .f32)) x _
    reducesTo_S8x288x64x30x30_S8x64x30x30_d1 hr h_S_ (ix4 b o h w)).trans ?_
  have hf : (x ∘ hr.lift (ix4 b o h w)) = fun p : Fin 288 => x (ix5 b p o h w) :=
    funext fun p => congrArg x (lift_ix4 hr b o h w p)
  rw [hf]
  show Finset.univ.fold max (Ideal.ofBits .f32 0xFF800000#32) (fun p : Fin 288 => x (ix5 b p o h w)) = _
  rw [bits_negInf]
  rfl

/-- One branch: when the summand at window position `p` is `L p + K p`, the reduce followed by the exponential
    is the specification's branch (which adds in the order `K p + L p`). -/
theorem branch_at (x : S8x288x64x30x30.Idx → EReal) (K L : Fin 288 → EReal) (b : Fin 8) (o : Fin 64) (h w : Fin 30)
    (hx : ∀ p : Fin 288, x (ix5 b p o h w) = L p + K p) :
    FloatOps.hostUnary (F := Ideal) (φ := .f32) .exp
        (Host.reduce (FloatOps.maximumf (F := Ideal) (φ := .f32)) x (constant (F := Ideal) S_ .f32 0xFF800000#32)
          reducesTo_S8x288x64x30x30_S8x64x30x30_d1 h_S_ (ix4 b o h w))
      = Cert.Morph.branch K L := by
  rw [reduce_max_at, Ideal.hostUnary_exp_def]
  unfold Cert.Morph.branch
  exact congrArg Ideal.exp (Finset.sup_congr rfl fun p _ => (hx p).trans (add_comm _ _))

/-! ## The four branches and the result -/

/-- Branch (positive, k1). -/
theorem branch55_at (x0 : Cert.Morph.SX.Idx → EReal) (x1 : Cert.Morph.SK.Idx → EReal) (b : Fin 8) (o : Fin 64) (h w : Fin 30) :
    val_main_v55 (F := Ideal) x0 x1 (ix4 b o h w)
      = Cert.Morph.branch (fun p => Cert.Morph.kflat x1 p o) (fun p => Cert.Morph.logPos x0 b p h w) := by
  rw [val_main_v55_apply]
  unfold val_main_v54 val_main_cst_1
  exact branch_at _ _ _ b o h w fun p => sum53_at x0 x1 b p o h w

/-- Branch (positive, k2). -/
theorem branch62_at (x0 : Cert.Morph.SX.Idx → EReal) (x2 : Cert.Morph.SK.Idx → EReal) (b : Fin 8) (o : Fin 64) (h w : Fin 30) :
    val_main_v62 (F := Ideal) x0 x2 (ix4 b o h w)
      = Cert.Morph.branch (fun p => Cert.Morph.kflat x2 p o) (fun p => Cert.Morph.logPos x0 b p h w) := by
  rw [val_main_v62_apply]
  unfold val_main_v61 val_main_cst_2
  exact branch_at _ _ _ b o h w fun p => sum60_at x0 x2 b p o h w

/-- Branch (negative, k1). -/
theorem branch69_at (x0 : Cert.Morph.SX.Idx → EReal) (x1 : Cert.Morph.SK.Idx → EReal) (b : Fin 8) (o : Fin 64) (h w : Fin 30) :
    val_main_v69 (F := Ideal) x0 x1 (ix4 b o h w)
      = Cert.Morph.branch (fun p => Cert.Morph.kflat x1 p o) (fun p => Cert.Morph.logNeg x0 b p h w) := by
  rw [val_main_v69_apply]
  unfold val_main_v68 val_main_cst_3
  exact branch_at _ _ _ b o h w fun p => sum67_at x0 x1 b p o h w

/-- Branch (negative, k2). -/
theorem branch76_at (x0 : Cert.Morph.SX.Idx → EReal) (x2 : Cert.Morph.SK.Idx → EReal) (b : Fin 8) (o : Fin 64) (h w : Fin 30) :
    val_main_v76 (F := Ideal) x0 x2 (ix4 b o h w)
      = Cert.Morph.branch (fun p => Cert.Morph.kflat x2 p o) (fun p => Cert.Morph.logNeg x0 b p h w) := by
  rw [val_main_v76_apply]
  unfold val_main_v75 val_main_cst_4
  exact branch_at _ _ _ b o h w fun p => sum74_at x0 x2 b p o h w

/-- The bias broadcast along the batch and the pixel is read at the output channel. -/
theorem bias_at (x3 : Cert.Morph.SB.Idx → EReal) (b : Fin 8) (o : Fin 64) (h w : Fin 30) :
    val_main_v81 (F := Ideal) x3 (ix4 b o h w) = x3 (ix1 o) := by
  rw [val_main_v81_apply, val_main_v80_apply]
  exact congrArg x3 (funext fun a => by fin_cases a; rfl)

/-- The reference's last stage is `G`. -/
theorem ref_is_G (x0 : Cert.Morph.SX.Idx → EReal) (x1 x2 : Cert.Morph.SK.Idx → EReal) (x3 : Cert.Morph.SB.Idx → EReal) :
    val_main_v82 (F := Ideal) x0 x1 x2 x3 = Cert.Morph.G x0 x1 x2 x3 := by
  funext i
  obtain ⟨b, o, h, w, rfl⟩ : ∃ b o h w, i = ix4 b o h w := ⟨i 0, i 1, i 2, i 3, eq_ix4 i⟩
  rw [Cert.Morph.G_apply, val_main_v82_apply, val_main_v79_apply, val_main_v78_apply, val_main_v77_apply,
    branch55_at, branch62_at, branch69_at, branch76_at, bias_at]
  unfold Cert.Morph.Gat
  simp only [Ideal.addf_def, Ideal.subf_def]

end Cert.Morph.Ref

end
-- ==== Proof.lean ====
/-
  The certificate of the bipolar morphological layer: the Pallas kernel's program against its jnp reference.

  Both programs compute, for an image `x`, two weight arrays and a bias, the layer
  `G = ((e₁₁ - e₁₂) - e₂₁) + e₂₂ + bias`, each `e` the exponential of a max-plus product over the 288 positions of a
  3 × 3 window of 32 channels, of the weights with the log of the shifted positive or negative part of the image's
  patches (proof/Proof/Spec.lean).  The reference forms the patches of `x` and of `-x` on the host and takes each
  maximum in one reduction from -∞; the kernel forms the patches of `x` once, negates inside (`0 - x`), and takes each
  maximum sixteen positions at a time over eighteen trips of a loop, from -∞.  On the extended reals a maximum does not
  care how it is grouped, `0 - x = -x`, and negation commutes with taking patches, so the two results are one function
  of the arguments — no finiteness of the inputs is used.

  The three frames: the kernel's program, as printed and idealized, runs to the end and writes only its result block
  (proof/Proof/KernelFrame.lean, KernelIdealFrame.lean); the reference is a straight line of host operations.  The
  idealization rewrote nothing, so `preserves` has nothing to say.
-/
import proofs.«175772_j20409684591419_1_alg».proof.Defs
import proofs.«175772_j20409684591419_1_alg».proof.Proof.Gen.Kernel
import proofs.«175772_j20409684591419_1_alg».proof.Proof.Gen.KernelIdeal
import proofs.«175772_j20409684591419_1_alg».proof.Proof.Gen.ReferenceIdeal
import proofs.«175772_j20409684591419_1_alg».proof.Proof.Gen.ReferenceIdeal.Run
import proofs.«175772_j20409684591419_1_alg».proof.Proof.Gen.ReferenceIdeal.Read
import proofs.«175772_j20409684591419_1_alg».proof.Proof.Gen.Pre_finite_inputs
import proofs.«175772_j20409684591419_1_alg».proof.Proof.KernelFrame
import proofs.«175772_j20409684591419_1_alg».proof.Proof.KernelIdealRun
import proofs.«175772_j20409684591419_1_alg».proof.Proof.RefIsSpec
import Idealize.ShloMosaic.Adequacy
import Idealize.ShloMosaic.Init

noncomputable section

namespace Cert.Proof

open Idealize.ShloMosaic Idealize.SL.Sem

/-- The program as printed runs and leaves its arguments unchanged. -/
theorem frame_kernel : Cert.frame_Kernel := fun m ρ _ => Cert.Kernel.Fr.frame m ρ

/-- So does its idealization. -/
theorem frame_kernelIdeal : Cert.frame_KernelIdeal := fun m ρ _ => Cert.KernelIdeal.Fr.frame m ρ

/-- The reference is host operations only: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the layer `G` of those arguments. -/
theorem algebraic : Cert.algebraic_KernelIdeal_ReferenceIdeal := by
  intro m ρ m' ρ' _ hagree
  refine ⟨_, Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v82_eq, (hagree c).1, (hagree c).2.1, (hagree c).2.2.1, (hagree c).2.2.2]
  exact Cert.Morph.Ref.ref_is_G _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
